-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S2048x1024 .f32) (main_arg19 : FVec F S2048x1024 .f32) (main_v83 : IVec S_ 1) (main_v84 : FVec F S2048x1024 .f32) (main_cst_32 : FVec F S_ .f32) : IVec S_ 1 :=
  let main_v85 : FVec F S2048x1024 .f32 := broadcastInDim S2048x1024 ![] bcast_S_S2048x1024 main_cst_32
  let main_v86 : IVec S2048x1024 1 := cmpf .olt main_v84 main_v85
  let main_c_33 : IVec S_ 1 := constantI S_ 1 1#1
  let main_v87 : IVec S_ 1 := (fun x v => Host.reduce IntOp.andi x v reducesTo_S2048x1024_S_d0_1 h_S_) main_v86 main_c_33
  let main_v88 : IVec S_ 1 := andi main_v83 main_v87
  let main_v89 : FVec F S2048x1024 .f32 := Host.absf main_arg18
  let main_cst_34 : FVec F S_ .f32 := constant S_ .f32 0x7F800000#32
  let main_v90 : FVec F S2048x1024 .f32 := broadcastInDim S2048x1024 ![] bcast_S_S2048x1024 main_cst_34
  let main_v91 : IVec S2048x1024 1 := cmpf .olt main_v89 main_v90
  let main_c_35 : IVec S_ 1 := constantI S_ 1 1#1
  let main_v92 : IVec S_ 1 := (fun x v => Host.reduce IntOp.andi x v reducesTo_S2048x1024_S_d0_1 h_S_) main_v91 main_c_35
  let main_v93 : IVec S_ 1 := andi main_v88 main_v92
  let main_v94 : FVec F S2048x1024 .f32 := Host.absf main_arg19
  let main_cst_36 : FVec F S_ .f32 := constant S_ .f32 0x7F800000#32
  let main_v95 : FVec F S2048x1024 .f32 := broadcastInDim S2048x1024 ![] bcast_S_S2048x1024 main_cst_36
  let main_v96 : IVec S2048x1024 1 := cmpf .olt main_v94 main_v95
  let main_c_37 : IVec S_ 1 := constantI S_ 1 1#1
  let main_v97 : IVec S_ 1 := (fun x v => Host.reduce IntOp.andi x v reducesTo_S2048x1024_S_d0_1 h_S_) main_v96 main_c_37
  let main_v98 : IVec S_ 1 := andi main_v93 main_v97
  main_v98

def fn_part4 {F : FTy → Type} [FloatOps F] (main_arg14 : FVec F S1024 .f32) (main_arg15 : FVec F S2048x1024 .f32) (main_arg16 : FVec F S2048x1024 .f32) (main_arg17 : FVec F S2048x1024 .f32) (main_arg18 : FVec F S2048x1024 .f32) (main_arg19 : FVec F S2048x1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S2048x1024 .f32 := Host.absf main_arg15
  let main_cst_28 : FVec F S_ .f32 := constant S_ .f32 0x7F800000#32
  let main_v75 : FVec F S2048x1024 .f32 := broadcastInDim S2048x1024 ![] bcast_S_S2048x1024 main_cst_28
  let main_v76 : IVec S2048x1024 1 := cmpf .olt main_v74 main_v75
  let main_c_29 : IVec S_ 1 := constantI S_ 1 1#1
  let main_v77 : IVec S_ 1 := (fun x v => Host.reduce IntOp.andi x v reducesTo_S2048x1024_S_d0_1 h_S_) main_v76 main_c_29
  let main_v78 : IVec S_ 1 := andi main_v73 main_v77
  let main_v79 : FVec F S2048x1024 .f32 := Host.absf main_arg16
  let main_cst_30 : FVec F S_ .f32 := constant S_ .f32 0x7F800000#32
  let main_v80 : FVec F S2048x1024 .f32 := broadcastInDim S2048x1024 ![] bcast_S_S2048x1024 main_cst_30
  let main_v81 : IVec S2048x1024 1 := cmpf .olt main_v79 main_v80
  let main_c_31 : IVec S_ 1 := constantI S_ 1 1#1
  let main_v82 : IVec S_ 1 := (fun x v => Host.reduce IntOp.andi x v reducesTo_S2048x1024_S_d0_1 h_S_) main_v81 main_c_31
  let main_v83 : IVec S_ 1 := andi main_v78 main_v82
  let main_v84 : FVec F S2048x1024 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S1024 .f32) (main_arg12 : FVec F S1024 .f32) (main_arg13 : FVec F S1024 .f32) (main_arg14 : FVec F S1024 .f32) (main_arg15 : FVec F S2048x1024 .f32) (main_arg16 : FVec F S2048x1024 .f32) (main_arg17 : FVec F S2048x1024 .f32) (main_arg18 : FVec F S2048x1024 .f32) (main_arg19 : FVec F S2048x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_arg19 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S2048x1024 .f32) (main_arg16 : FVec F S2048x1024 .f32) (main_arg17 : FVec F S2048x1024 .f32) (main_arg18 : FVec F S2048x1024 .f32) (main_arg19 : FVec F S2048x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S2048x1024 .f32) (main_arg16 : FVec F S2048x1024 .f32) (main_arg17 : FVec F S2048x1024 .f32) (main_arg18 : FVec F S2048x1024 .f32) (main_arg19 : FVec F S2048x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S2048x1024 .f32) (main_arg1 : FVec F S2048x1024 .f32) (main_arg2 : FVec F S2048x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S2048x1024 .f32) (main_arg16 : FVec F S2048x1024 .f32) (main_arg17 : FVec F S2048x1024 .f32) (main_arg18 : FVec F S2048x1024 .f32) (main_arg19 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S128x1024 : Shape := ⟨2, ![128, 1024]⟩

abbrev nBuf : Space → Nat
  | .hbm => 35
  | .vmem => 32
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1024x1024, .bf16⟩
  | .hbm, ⟨28, _⟩ => ⟨S1024x1024, .bf16⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S2048x1024, .f32⟩
  | .hbm, ⟨34, _⟩ => ⟨S2048x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  bitsLt_bf16_f32 : FTy.bits .bf16 < FTy.bits .f32
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S2048x1024.size a
  hwx0_0 : ∀ i : grid0.Coords, EltTy.bits .bf16 = 32 ∨ (Rect.block (s := S2048x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S2048x1024.size a
  hwx0_1 : ∀ i : grid0.Coords, EltTy.bits .f32 = 32 ∨ (Rect.block (s := S2048x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S2048x1024.size a
  hwx0_2 : ∀ i : grid0.Coords, EltTy.bits .f32 = 32 ∨ (Rect.block (s := S2048x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S2048x1024.size a
  hwx0_3 : ∀ i : grid0.Coords, EltTy.bits .f32 = 32 ∨ (Rect.block (s := S2048x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S2048x1024.size a
  hwx0_4 : ∀ i : grid0.Coords, EltTy.bits .f32 = 32 ∨ (Rect.block (s := S2048x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S2048x1024.size a
  hwx0_5 : ∀ i : grid0.Coords, EltTy.bits .f32 = 32 ∨ (Rect.block (s := S2048x1024) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S2048x1024.size a
  hwx0_6 : ∀ i : grid0.Coords, EltTy.bits .f32 = 32 ∨ (Rect.block (s := S2048x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S2048x1024.size a
  hwx0_7 : ∀ i : grid0.Coords, EltTy.bits .f32 = 32 ∨ (Rect.block (s := S2048x1024) S128x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x1024.size a ≤ S1024x1024.size a
  hwx0_14 : ∀ i : grid0.Coords, EltTy.bits .bf16 = 32 ∨ (Rect.block (s := S1024x1024) S1024x1024.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x1024.size a ≤ S1024x1024.size a
  hwx0_15 : ∀ i : grid0.Coords, EltTy.bits .bf16 = 32 ∨ (Rect.block (s := S1024x1024) S1024x1024.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1024.size a ≤ S1x1024.size a
  hwx0_16 : ∀ i : grid0.Coords, EltTy.bits .f32 = 32 ∨ (Rect.block (s := S1x1024) S1x1024.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1024.size a ≤ S1x1024.size a
  hwx0_18 : ∀ i : grid0.Coords, EltTy.bits .f32 = 32 ∨ (Rect.block (s := S1x1024) S1x1024.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1024.size a ≤ S1x1024.size a
  hwx0_19 : ∀ i : grid0.Coords, EltTy.bits .f32 = 32 ∨ (Rect.block (s := S1x1024) S1x1024.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S128x1024.size a ≤ S2048x1024.size a
  hwx0_20 : ∀ i : grid0.Coords, EltTy.bits .f32 = 32 ∨ (Rect.block (s := S2048x1024) S128x1024.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S128x1024.size a ≤ S2048x1024.size a
  hwx0_21 : ∀ i : grid0.Coords, EltTy.bits .f32 = 32 ∨ (Rect.block (s := S2048x1024) S128x1024.size (cc0_transform_21 i) (hinb0_21 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg15) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg16) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg17) S128x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg18) S128x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg19) S128x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1024x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S1024x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v9) S1x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v10) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v11) S1x1024.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v12) S1x1024.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v13_0) S128x1024.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v13_1) S128x1024.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S1024x1024 : Shape := ⟨2, ![1024, 1024]⟩
abbrev S1024 : Shape := ⟨1, ![1024]⟩
abbrev S1x2048x1024 : Shape := ⟨3, ![1, 2048, 1024]⟩
abbrev S4x2048x1024 : Shape := ⟨3, ![4, 2048, 1024]⟩
abbrev S1x1024x1024 : Shape := ⟨3, ![1, 1024, 1024]⟩
abbrev S4x1024x1024 : Shape := ⟨3, ![4, 1024, 1024]⟩
abbrev S4x1024x2048 : Shape := ⟨3, ![4, 1024, 2048]⟩
abbrev S1x1024 : Shape := ⟨2, ![1, 1024]⟩
abbrev S_ : Shape := ⟨0, ![]⟩

abbrev nBuf : Space → Nat
  | .hbm => 94
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S4x2048x1024, .f32⟩
  | .hbm, ⟨29, _⟩ => ⟨S1x1024x1024, .f32⟩
  | .hbm, ⟨30, _⟩ => ⟨S1x1024x1024, .f32⟩
  | .hbm, ⟨31, _⟩ => ⟨S1x1024x1024, .f32⟩
  | .hbm, ⟨32, _⟩ => ⟨S1x1024x1024, .f32⟩
  | .hbm, ⟨33, _⟩ => ⟨S4x1024x1024, .f32⟩
  | .hbm, ⟨34, _⟩ => ⟨S1x1024x1024, .f32⟩
  | .hbm, ⟨35, _⟩ => ⟨S1x1024x1024, .f32⟩
  | .hbm, ⟨36, _⟩ => ⟨S1x1024x1024, .f32⟩
  | .hbm, ⟨37, _⟩ => ⟨S1x1024x1024, .f32⟩
  | .hbm, ⟨38, _⟩ => ⟨S4x1024x1024, .f32⟩
  | .hbm, ⟨39, _⟩ => ⟨S4x1024x2048, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S1x2048x1024, .f32⟩
  | .hbm, ⟨44, _⟩ => ⟨S2048x1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S1x2048x1024, .f32⟩
  | .hbm, ⟨57, _⟩ => ⟨S2048x1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048x1024, .f32⟩
  | .hbm, ⟨68, _⟩ => ⟨S2048x1024, .f32⟩
  | .hbm, ⟨69, _⟩ => ⟨S1x2048x1024, .f32⟩
  | .hbm, ⟨70, _⟩ => ⟨S2048x1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S1x2048x1024, .f32⟩
  | .hbm, ⟨77, _⟩ => ⟨S2048x1024, .f32⟩
  | .hbm, ⟨78, _⟩ => ⟨S1x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst : Ref sig .tc := ⟨.hbm, 50, rfl⟩
abbrev main_v30 : Ref sig .tc := ⟨.hbm, 51, rfl⟩
abbrev main_v31 : Ref sig .tc := ⟨.hbm, 52, rfl⟩
abbrev main_cst_0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_1 : Ref sig .tc := ⟨.hbm, 63, rfl⟩
abbrev main_v41 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_3 : Ref sig .tc := ⟨.hbm, 83, rfl⟩
abbrev main_v59 : Ref sig .tc := ⟨.hbm, 84, rfl⟩
abbrev main_v60 : Ref sig .tc := ⟨.hbm, 85, rfl⟩
abbrev main_cst_4 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]

class Facts₀ : Prop where
  bcast_S2048x1024_S1x2048x1024_1_2 : S2048x1024.BroadcastsInDim S1x2048x1024 (![1, 2] : Fin 2 → Fin S1x2048x1024.rank)
  concatenates_S1x2048x1024_S1x2048x1024_S1x2048x1024_S1x2048x1024_S4x2048x1024_d0 : Shape.Concatenates [S1x2048x1024, S1x2048x1024, S1x2048x1024, S1x2048x1024] S4x2048x1024 0
  bcast_S1024x1024_S1x1024x1024_1_2 : S1024x1024.BroadcastsInDim S1x1024x1024 (![1, 2] : Fin 2 → Fin S1x1024x1024.rank)
  concatenates_S1x1024x1024_S1x1024x1024_S1x1024x1024_S1x1024x1024_S4x1024x1024_d0 : Shape.Concatenates [S1x1024x1024, S1x1024x1024, S1x1024x1024, S1x1024x1024] S4x1024x1024 0
  transposes_S4x1024x2048_S4x2048x1024_0_2_1 : S4x1024x2048.Transposes [0, 2, 1] S4x2048x1024
  slices_S4x2048x1024_S1x2048x1024_0_0_0 : S4x2048x1024.Slices ![0, 0, 0] S1x2048x1024
  shapeCasts_S1x2048x1024_S2048x1024 : S1x2048x1024.ShapeCasts S2048x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  slices_S4x2048x1024_S1x2048x1024_1_0_0 : S4x2048x1024.Slices ![1, 0, 0] S1x2048x1024
  slices_S4x2048x1024_S1x2048x1024_2_0_0 : S4x2048x1024.Slices ![2, 0, 0] S1x2048x1024
  slices_S4x2048x1024_S1x2048x1024_3_0_0 : S4x2048x1024.Slices ![3, 0, 0] S1x2048x1024
  dot_S4x1024x1024_S2048x1024_S4x1024x2048_2_1_01_0_n_n_wf : DotDims.WF S4x1024x1024 S2048x1024 S4x1024x2048 [2] [1] [0, 1] [0] [] []
  dot_S4x2048x1024_S4x1024x1024_S4x2048x1024_2_2_1_1_0_0_wf : DotDims.WF S4x2048x1024 S4x1024x1024 S4x2048x1024 [2] [2] [1] [1] [0] [0]

variable [Facts₀]

def dot_S4x1024x1024_S2048x1024_S4x1024x2048_2_1_01_0_n_n : DotDims S4x1024x1024 S2048x1024 S4x1024x2048 where
  lhsContracting := [2]
  rhsContracting := [1]
  lhsNonContracting := [0, 1]
  rhsNonContracting := [0]
  lhsBatch := []
  rhsBatch := []
  wf := dot_S4x1024x1024_S2048x1024_S4x1024x2048_2_1_01_0_n_n_wf
def dot_S4x2048x1024_S4x1024x1024_S4x2048x1024_2_2_1_1_0_0 : DotDims S4x2048x1024 S4x1024x1024 S4x2048x1024 where
  lhsContracting := [2]
  rhsContracting := [2]
  lhsNonContracting := [1]
  rhsNonContracting := [1]
  lhsBatch := [0]
  rhsBatch := [0]
  wf := dot_S4x2048x1024_S4x1024x1024_S4x2048x1024_2_2_1_1_0_0_wf

class Facts : Prop extends Facts₀ where

variable [Facts]
-- ==== Proof.CellSpec.lean ====
/-
  The mathematics of one step of an LSTM cell with per-gate dropout masks on the recurrent input and a mask on the
  candidate, over the extended reals.

  For a batch row `r` and a hidden unit `q` the pre-activation of a gate with input weights `wx`, recurrent weights
  `wh`, bias `b` and recurrent mask `mh` is

    `gate r q = (∑ k, x (r, k) * wx (q, k)) + (∑ k, (h (r, k) * mh (r, k)) * wh (q, k)) + b q`:

  both products are with the TRANSPOSED weight matrix (row `q` of the weights against row `r` of the data). The new cell
  state is `σ(gate_F) · c + σ(gate_I) · (tanh(gate_C) · mc)` and the new hidden state `σ(gate_O) · tanh(new cell state)`,
  with `σ z = 1 / (1 + e^(-z))` read on the extended reals (`σ ⊥ = 0`, `σ ⊤ = 1`).
-/
import Idealize.ShloMosaic.Lib.ValueIdx
import Idealize.ShloMosaic.PureOps.Ideal.Laws

noncomputable section

namespace Cert.Cell

open Idealize.ShloMosaic Idealize.ShloMosaic.ValueIdx

/-- A batch of 2048 rows of 1024 features. -/
abbrev Rows : Shape := ⟨2, ![2048, 1024]⟩
/-- A 1024 by 1024 weight matrix, one row per hidden unit. -/
abbrev Wts : Shape := ⟨2, ![1024, 1024]⟩
/-- One bias per hidden unit. -/
abbrev Bias : Shape := ⟨1, ![1024]⟩

/-- The binary32 pattern of one denotes the real number one. -/
theorem one_f32 : Ideal.ofBits .f32 0x3F800000#32 = 1 := by
  simp [Ideal.ofBits, Ideal.ieee, -EReal.coe_mul]; norm_num

/-- A gate's pre-activation at batch row `r` and hidden unit `q`: the input against row `q` of the input weights, the
    masked recurrent input against row `q` of the recurrent weights, and the unit's bias. -/
def gate (x h mh : FVec Ideal Rows .f32) (wx wh : FVec Ideal Wts .f32) (b : FVec Ideal Bias .f32)
    (r : Fin 2048) (q : Fin 1024) : EReal :=
  ((∑ k : Fin 1024, x (ix2 r k) * wx (ix2 q k)) + ∑ k : Fin 1024, (h (ix2 r k) * mh (ix2 r k)) * wh (ix2 q k)) + b (ix1 q)

/-- The new cell state: the forget gate times the old state plus the input gate times the masked candidate.
    Arguments in the order of the programs' arguments: `x h c`, the input weights of the gates I F C O, the recurrent
    weights of I F C O, the biases of I F C O, the recurrent masks of I F C O, the candidate's mask. -/
def cellState (x h c : FVec Ideal Rows .f32) (wxi wxf wxc wxo whi whf whc who : FVec Ideal Wts .f32)
    (bi bf bc bo : FVec Ideal Bias .f32) (mI mF mC mO mc : FVec Ideal Rows .f32) : FVec Ideal Rows .f32 := fun j =>
  Ideal.logistic (gate x h mF wxf whf bf (j 0) (j 1)) * c j
    + Ideal.logistic (gate x h mI wxi whi bi (j 0) (j 1)) * (Ideal.tanh (gate x h mC wxc whc bc (j 0) (j 1)) * mc j)

/-- The new hidden state: the output gate times `tanh` of the new cell state. -/
def hidden (x h c : FVec Ideal Rows .f32) (wxi wxf wxc wxo whi whf whc who : FVec Ideal Wts .f32)
    (bi bf bc bo : FVec Ideal Bias .f32) (mI mF mC mO mc : FVec Ideal Rows .f32) : FVec Ideal Rows .f32 := fun j =>
  Ideal.logistic (gate x h mO wxo who bo (j 0) (j 1))
    * Ideal.tanh (cellState x h c wxi wxf wxc wxo whi whf whc who bi bf bc bo mI mF mC mO mc j)

end Cert.Cell

end
-- ==== Proof.KernelTile.lean ====
/-
  One batch tile of the kernel, at `Ideal`: a gate's pre-activation from the tile's blocks, and the two blocks the
  body stores, read at an entry.

  The body's products are `tpu.matmul`s into the zero accumulator that contract axis 1 of BOTH operands: the data tile
  against the TRANSPOSED weight matrix. So entry `(p, q)` of a product is `∑ k, lhs (p, k) * rhs (q, k)`. The change of
  float format in front of the recurrent product is the identity on the extended reals, the bias row is repeated down
  the tile, and the gates are the pointwise `σ` and `tanh`.
-/
import proofs.«120567_j22445499089342_1_alg».proof.Proof.Gen.KernelIdeal.Skeleton
import proofs.«120567_j22445499089342_1_alg».proof.Proof.CellSpec
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The product with the transposed weights, at an entry -/

/-- The left operand's row is the result's row. -/
theorem lhs_row (i : S128x1024.Idx) (c : dot_S128x1024_S1024x1024_S128x1024_1_1_0_0_n_n.contr.Idx) :
    (dot_S128x1024_S1024x1024_S128x1024_1_1_0_0_n_n.lhsIdx i c 0).val = (i 0).val := by
  unfold DotDims.lhsIdx
  rw [dif_neg (show ¬(0 : Fin S128x1024.rank) ∈ dot_S128x1024_S1024x1024_S128x1024_1_1_0_0_n_n.lhsBatch by decide),
    dif_pos (show (0 : Fin S128x1024.rank) ∈ dot_S128x1024_S1024x1024_S128x1024_1_1_0_0_n_n.lhsNonContracting by decide)]
  rfl

/-- The left operand's column is the contraction position. -/
theorem lhs_col (i : S128x1024.Idx) (c : dot_S128x1024_S1024x1024_S128x1024_1_1_0_0_n_n.contr.Idx) :
    (dot_S128x1024_S1024x1024_S128x1024_1_1_0_0_n_n.lhsIdx i c 1).val = (c ⟨0, by decide⟩).val :=
  dot_S128x1024_S1024x1024_S128x1024_1_1_0_0_n_n.lhsIdx_val_of_single rfl i c

/-- The right operand's ROW is the result's column: the weights enter transposed. -/
theorem rhs_row (i : S128x1024.Idx) (c : dot_S128x1024_S1024x1024_S128x1024_1_1_0_0_n_n.contr.Idx) :
    (dot_S128x1024_S1024x1024_S128x1024_1_1_0_0_n_n.rhsIdx i c 0).val = (i 1).val := by
  unfold DotDims.rhsIdx
  rw [dif_neg (show ¬(0 : Fin S1024x1024.rank) ∈ dot_S128x1024_S1024x1024_S128x1024_1_1_0_0_n_n.rhsBatch by decide),
    dif_pos (show (0 : Fin S1024x1024.rank) ∈ dot_S128x1024_S1024x1024_S128x1024_1_1_0_0_n_n.rhsNonContracting by decide)]
  rfl

/-- The right operand's column is the contraction position. -/
theorem rhs_col (i : S128x1024.Idx) (c : dot_S128x1024_S1024x1024_S128x1024_1_1_0_0_n_n.contr.Idx) :
    (dot_S128x1024_S1024x1024_S128x1024_1_1_0_0_n_n.rhsIdx i c 1).val = (c ⟨0, by decide⟩).val :=
  dot_S128x1024_S1024x1024_S128x1024_1_1_0_0_n_n.rhsIdx_val_of_single rfl i c

/-- Entry `(p, q)` of the tile's product with the transposed weights, into the zero accumulator. -/
theorem matmulT_apply {φ₁ φ₂ : FTy} (lhs : FVec Ideal S128x1024 φ₁) (rhs : FVec Ideal S1024x1024 φ₂) (p : Fin 128) (q : Fin 1024) :
    matmul dot_S128x1024_S1024x1024_S128x1024_1_1_0_0_n_n none lhs rhs (constant (F := Ideal) S128x1024 .f32 0x00000000#32) (ix2 p q)
      = ∑ k : Fin 1024, lhs (ix2 p k) * rhs (ix2 q k) := by
  refine (Ideal.matmul_constant_zero_apply dot_S128x1024_S1024x1024_S128x1024_1_1_0_0_n_n none lhs rhs (ix2 p q)).trans ?_
  rw [← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 p q) ((contrEquiv1 dot_S128x1024_S1024x1024_S128x1024_1_1_0_0_n_n 1024 rfl rfl).symm k) = ix2 p k := funext fun a => Fin.ext (by
    match a with
    | ⟨0, _⟩ => exact lhs_row _ _
    | ⟨1, _⟩ => exact (lhs_col _ _).trans hk)
  have er : dot_S128x1024_S1024x1024_S128x1024_1_1_0_0_n_n.rhsIdx (ix2 p q) ((contrEquiv1 dot_S128x1024_S1024x1024_S128x1024_1_1_0_0_n_n 1024 rfl rfl).symm k) = ix2 q k := funext fun a => Fin.ext (by
    match a with
    | ⟨0, _⟩ => exact rhs_row _ _
    | ⟨1, _⟩ => exact (rhs_col _ _).trans hk)
  rw [el, er]

/-- The bias row repeated down the tile: entry `(p, q)` is the row's entry `q`. -/
theorem biasRow_apply (b : FVec Ideal S1x1024 .f32) (p : Fin 128) (q : Fin 1024) :
    broadcastTo S128x1024 b broadcasts_S1x1024_S128x1024 (ix2 p q) = b (ix2 (0 : Fin 1) q) :=
  broadcastTo_apply b broadcasts_S1x1024_S128x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-! ## A gate and the two stored blocks -/

/-- Row `p` of grid point `t`'s tile is batch row `128 t + p`: the 16 points split the 2048 rows into tiles of 128. -/
def tileRow (t : Fin cfg0.N) (p : Fin 128) : Fin 2048 :=
  ⟨128 * t.val + p.val, by have ht : t.val < 16 := t.isLt; have hp := p.isLt; omega⟩

/-- A gate's pre-activation at row `p` of the tile and hidden unit `q`, from the tile's blocks: the input rows `x`, the
    recurrent rows `h` under their mask `mh`, the two weight matrices and the bias row. -/
def tileGate (x : FVec Ideal S128x1024 .bf16) (h mh : FVec Ideal S128x1024 .f32) (wx wh : FVec Ideal S1024x1024 .bf16)
    (b : FVec Ideal S1x1024 .f32) (p : Fin 128) (q : Fin 1024) : EReal :=
  ((∑ k : Fin 1024, x (ix2 p k) * wx (ix2 q k)) + ∑ k : Fin 1024, (h (ix2 p k) * mh (ix2 p k)) * wh (ix2 q k))
    + b (ix2 (0 : Fin 1) q)

/-- The tile's gate is the gate of whole arrays at batch row `r`, when row `p` of each data block is row `r` of its array,
    the weight blocks are the weight matrices on row `q`, and the bias row holds the bias vector. -/
theorem tileGate_eq_gate (x : FVec Ideal S128x1024 .bf16) (h mh : FVec Ideal S128x1024 .f32) (wx wh : FVec Ideal S1024x1024 .bf16)
    (b : FVec Ideal S1x1024 .f32) (X H MH : FVec Ideal Cell.Rows .f32) (WX WH : FVec Ideal Cell.Wts .f32) (B : FVec Ideal Cell.Bias .f32)
    (r : Fin 2048) (p : Fin 128) (q : Fin 1024)
    (hx : ∀ k, x (ix2 p k) = X (ix2 r k)) (hh : ∀ k, h (ix2 p k) = H (ix2 r k)) (hm : ∀ k, mh (ix2 p k) = MH (ix2 r k))
    (hwx : ∀ k, wx (ix2 q k) = WX (ix2 q k)) (hwh : ∀ k, wh (ix2 q k) = WH (ix2 q k)) (hb : b (ix2 (0 : Fin 1) q) = B (ix1 q)) :
    tileGate x h mh wx wh b p q = Cell.gate X H MH WX WH B r q := by
  unfold tileGate Cell.gate
  simp only [hx, hh, hm, hwx, hwh, hb]

/-- The stored cell-state block at `(p, q)`: forget gate times the old state plus input gate times the masked candidate. -/
theorem cellBlock_apply (v1 : FVec Ideal S128x1024 .bf16) (v2 v3 v4 v5 v6 v8 : FVec Ideal S128x1024 .f32)
    (v10 v12 v14 v18 v20 v22 : FVec Ideal S1024x1024 .bf16) (v25 v27 v29 : FVec Ideal S1x1024 .f32) (p : Fin 128) (q : Fin 1024) :
    k0_pay10 (F := Ideal) v1 v2 v3 v4 v5 v6 v8 v10 v12 v14 v18 v20 v22 v25 v27 v29 (ix2 p q)
      = Ideal.logistic (tileGate v1 v2 v5 v12 v20 v27 p q) * v3 (ix2 p q)
        + Ideal.logistic (tileGate v1 v2 v4 v10 v18 v25 p q) * (Ideal.tanh (tileGate v1 v2 v6 v14 v22 v29 p q) * v8 (ix2 p q)) := by
  unfold k0_pay10 tileGate
  simp only [shapeCast_self]
  simp only [addf, mulf, logistic, tanh, Ideal.addf_def, Ideal.mulf_def, Ideal.logistic_def, Ideal.tanh_def]
  rw [matmulT_apply, matmulT_apply, matmulT_apply, matmulT_apply, matmulT_apply, matmulT_apply,
    biasRow_apply, biasRow_apply, biasRow_apply]
  simp only [truncf, mulf, Ideal.truncf_def, Ideal.mulf_def]

/-- The stored hidden-state block at `(p, q)`: output gate times `tanh` of the stored cell-state block. -/
theorem hiddenBlock_apply (v1 : FVec Ideal S128x1024 .bf16) (v2 v3 v4 v5 v6 v7 v8 : FVec Ideal S128x1024 .f32)
    (v10 v12 v14 v16 v18 v20 v22 v24 : FVec Ideal S1024x1024 .bf16) (v25 v27 v29 v31 : FVec Ideal S1x1024 .f32) (p : Fin 128) (q : Fin 1024) :
    k0_pay11 (F := Ideal) v1 v2 v3 v4 v5 v6 v7 v8 v10 v12 v14 v16 v18 v20 v22 v24 v25 v27 v29 v31 (ix2 p q)
      = Ideal.logistic (tileGate v1 v2 v7 v16 v24 v31 p q)
        * Ideal.tanh (k0_pay10 (F := Ideal) v1 v2 v3 v4 v5 v6 v8 v10 v12 v14 v18 v20 v22 v25 v27 v29 (ix2 p q)) := by
  unfold k0_pay11 tileGate
  simp only [shapeCast_self]
  simp only [addf, mulf, logistic, tanh, Ideal.addf_def, Ideal.mulf_def, Ideal.logistic_def, Ideal.tanh_def]
  rw [matmulT_apply, matmulT_apply, biasRow_apply]
  simp only [truncf, mulf, Ideal.truncf_def, Ideal.mulf_def]

end Cert.KernelIdeal.Tile

end
-- ==== Proof.KernelBlocks.lean ====
/-
  Where each window's block sits, and what it holds, one lemma shape per kind of window (22 windows: the table is in the
  script named on line 1).

  The grid has 16 points; point t works on batch rows 128 t … 128 t + 127. A DATA window's block index is (t, 0): row p of
  its block is batch row 128 t + p of the array. A WEIGHT or BIAS window's block index is (0, 0) at every point: its block
  is the whole array. In front of the region the host only changes the float format of the input and the weights (the
  identity on the extended reals) and views each bias vector as one row.
-/
import proofs.«120567_j22445499089342_1_alg».proof.Proof.Gen.KernelIdeal.Frame
import proofs.«120567_j22445499089342_1_alg».proof.Proof.KernelTile
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Tile Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The arrays the region finds: the host operations in front of it -/

/-- The input in the narrower float format is the input. -/
theorem V_v0 (c : Dev nD) : (V m c main_v0 : FVec Ideal S2048x1024 .bf16) = (m ((c : Thread nD τ).loc main_arg0)) := by
  dsimp only [Gen.V, Gen.hostOps0]; after_results; rfl

/-- A weight matrix in the narrower float format is the weight matrix. -/
theorem V_v1 (c : Dev nD) : (V m c main_v1 : FVec Ideal S1024x1024 .bf16) = (m ((c : Thread nD τ).loc main_arg3)) := by
  dsimp only [Gen.V, Gen.hostOps0]; after_results; rfl

/-- A weight matrix in the narrower float format is the weight matrix. -/
theorem V_v2 (c : Dev nD) : (V m c main_v2 : FVec Ideal S1024x1024 .bf16) = (m ((c : Thread nD τ).loc main_arg4)) := by
  dsimp only [Gen.V, Gen.hostOps0]; after_results; rfl

/-- A weight matrix in the narrower float format is the weight matrix. -/
theorem V_v3 (c : Dev nD) : (V m c main_v3 : FVec Ideal S1024x1024 .bf16) = (m ((c : Thread nD τ).loc main_arg5)) := by
  dsimp only [Gen.V, Gen.hostOps0]; after_results; rfl

/-- A weight matrix in the narrower float format is the weight matrix. -/
theorem V_v4 (c : Dev nD) : (V m c main_v4 : FVec Ideal S1024x1024 .bf16) = (m ((c : Thread nD τ).loc main_arg6)) := by
  dsimp only [Gen.V, Gen.hostOps0]; after_results; rfl

/-- A weight matrix in the narrower float format is the weight matrix. -/
theorem V_v5 (c : Dev nD) : (V m c main_v5 : FVec Ideal S1024x1024 .bf16) = (m ((c : Thread nD τ).loc main_arg7)) := by
  dsimp only [Gen.V, Gen.hostOps0]; after_results; rfl

/-- A weight matrix in the narrower float format is the weight matrix. -/
theorem V_v6 (c : Dev nD) : (V m c main_v6 : FVec Ideal S1024x1024 .bf16) = (m ((c : Thread nD τ).loc main_arg8)) := by
  dsimp only [Gen.V, Gen.hostOps0]; after_results; rfl

/-- A weight matrix in the narrower float format is the weight matrix. -/
theorem V_v7 (c : Dev nD) : (V m c main_v7 : FVec Ideal S1024x1024 .bf16) = (m ((c : Thread nD τ).loc main_arg9)) := by
  dsimp only [Gen.V, Gen.hostOps0]; after_results; rfl

/-- A weight matrix in the narrower float format is the weight matrix. -/
theorem V_v8 (c : Dev nD) : (V m c main_v8 : FVec Ideal S1024x1024 .bf16) = (m ((c : Thread nD τ).loc main_arg10)) := by
  dsimp only [Gen.V, Gen.hostOps0]; after_results; rfl

/-- A bias vector viewed as one row. -/
theorem V_v9 (c : Dev nD) : (V m c main_v9 : FVec Ideal S1x1024 .f32) = shapeCast S1x1024 (m ((c : Thread nD τ).loc main_arg11)) shapeCasts_S1024_S1x1024 := by
  dsimp only [Gen.V, Gen.hostOps0]; after_results; rfl

/-- A bias vector viewed as one row. -/
theorem V_v10 (c : Dev nD) : (V m c main_v10 : FVec Ideal S1x1024 .f32) = shapeCast S1x1024 (m ((c : Thread nD τ).loc main_arg12)) shapeCasts_S1024_S1x1024 := by
  dsimp only [Gen.V, Gen.hostOps0]; after_results; rfl

/-- A bias vector viewed as one row. -/
theorem V_v11 (c : Dev nD) : (V m c main_v11 : FVec Ideal S1x1024 .f32) = shapeCast S1x1024 (m ((c : Thread nD τ).loc main_arg13)) shapeCasts_S1024_S1x1024 := by
  dsimp only [Gen.V, Gen.hostOps0]; after_results; rfl

/-- A bias vector viewed as one row. -/
theorem V_v12 (c : Dev nD) : (V m c main_v12 : FVec Ideal S1x1024 .f32) = shapeCast S1x1024 (m ((c : Thread nD τ).loc main_arg14)) shapeCasts_S1024_S1x1024 := by
  dsimp only [Gen.V, Gen.hostOps0]; after_results; rfl

/-! ## The block index of each window at each of the 16 points, decided -/

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = t.val ∧ win0_5.index t (1 : Fin 2) = 0 :=
  (by decide +kernel : ∀ t : Fin grid0.N, _)

theorem idx6 : ∀ t : Fin cfg0.N, win0_6.index t (0 : Fin 2) = t.val ∧ win0_6.index t (1 : Fin 2) = 0 :=
  (by decide +kernel : ∀ t : Fin grid0.N, _)

theorem idx7 : ∀ t : Fin cfg0.N, win0_7.index t (0 : Fin 2) = t.val ∧ win0_7.index t (1 : Fin 2) = 0 :=
  (by decide +kernel : ∀ t : Fin grid0.N, _)

theorem idx20 : ∀ t : Fin cfg0.N, win0_20.index t (0 : Fin 2) = t.val ∧ win0_20.index t (1 : Fin 2) = 0 :=
  (by decide +kernel : ∀ t : Fin grid0.N, _)

theorem idx21 : ∀ t : Fin cfg0.N, win0_21.index t (0 : Fin 2) = t.val ∧ win0_21.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem idx14 : ∀ t : Fin cfg0.N, win0_14.index t (0 : Fin 2) = 0 ∧ win0_14.index t (1 : Fin 2) = 0 :=
  (by decide +kernel : ∀ t : Fin grid0.N, _)

theorem idx15 : ∀ t : Fin cfg0.N, win0_15.index t (0 : Fin 2) = 0 ∧ win0_15.index t (1 : Fin 2) = 0 :=
  (by decide +kernel : ∀ t : Fin grid0.N, _)

theorem idx16 : ∀ t : Fin cfg0.N, win0_16.index t (0 : Fin 2) = 0 ∧ win0_16.index t (1 : Fin 2) = 0 :=
  (by decide +kernel : ∀ t : Fin grid0.N, _)

theorem idx17 : ∀ t : Fin cfg0.N, win0_17.index t (0 : Fin 2) = 0 ∧ win0_17.index t (1 : Fin 2) = 0 :=
  (by decide +kernel : ∀ t : Fin grid0.N, _)

theorem idx18 : ∀ t : Fin cfg0.N, win0_18.index t (0 : Fin 2) = 0 ∧ win0_18.index t (1 : Fin 2) = 0 :=
  (by decide +kernel : ∀ t : Fin grid0.N, _)

theorem idx19 : ∀ t : Fin cfg0.N, win0_19.index t (0 : Fin 2) = 0 ∧ win0_19.index t (1 : Fin 2) = 0 :=
  (by decide +kernel : ∀ t : Fin grid0.N, _)

/-! ## The blocks of one point, with their literal types -/

/-- Point `t`'s block of the input. -/
abbrev tx (c : Dev nD) (t : Fin cfg0.N) : FVec Ideal S128x1024 .bf16 := iblk m c 0 t

/-- Point `t`'s block of the recurrent state. -/
abbrev th (c : Dev nD) (t : Fin cfg0.N) : FVec Ideal S128x1024 .f32 := iblk m c 1 t

/-- Point `t`'s block of the cell state. -/
abbrev tc (c : Dev nD) (t : Fin cfg0.N) : FVec Ideal S128x1024 .f32 := iblk m c 2 t

/-- Point `t`'s block of the input gate's recurrent mask. -/
abbrev tmI (c : Dev nD) (t : Fin cfg0.N) : FVec Ideal S128x1024 .f32 := iblk m c 3 t

/-- Point `t`'s block of the forget gate's recurrent mask. -/
abbrev tmF (c : Dev nD) (t : Fin cfg0.N) : FVec Ideal S128x1024 .f32 := iblk m c 4 t

/-- Point `t`'s block of the candidate's recurrent mask. -/
abbrev tmC (c : Dev nD) (t : Fin cfg0.N) : FVec Ideal S128x1024 .f32 := iblk m c 5 t

/-- Point `t`'s block of the output gate's recurrent mask. -/
abbrev tmO (c : Dev nD) (t : Fin cfg0.N) : FVec Ideal S128x1024 .f32 := iblk m c 6 t

/-- Point `t`'s block of the candidate's own mask. -/
abbrev tmc (c : Dev nD) (t : Fin cfg0.N) : FVec Ideal S128x1024 .f32 := iblk m c 7 t

abbrev twxi (c : Dev nD) (t : Fin cfg0.N) : FVec Ideal S1024x1024 .bf16 := iblk m c 8 t

abbrev twxf (c : Dev nD) (t : Fin cfg0.N) : FVec Ideal S1024x1024 .bf16 := iblk m c 9 t

abbrev twxc (c : Dev nD) (t : Fin cfg0.N) : FVec Ideal S1024x1024 .bf16 := iblk m c 10 t

abbrev twxo (c : Dev nD) (t : Fin cfg0.N) : FVec Ideal S1024x1024 .bf16 := iblk m c 11 t

abbrev twhi (c : Dev nD) (t : Fin cfg0.N) : FVec Ideal S1024x1024 .bf16 := iblk m c 12 t

abbrev twhf (c : Dev nD) (t : Fin cfg0.N) : FVec Ideal S1024x1024 .bf16 := iblk m c 13 t

abbrev twhc (c : Dev nD) (t : Fin cfg0.N) : FVec Ideal S1024x1024 .bf16 := iblk m c 14 t

abbrev twho (c : Dev nD) (t : Fin cfg0.N) : FVec Ideal S1024x1024 .bf16 := iblk m c 15 t

abbrev tbi (c : Dev nD) (t : Fin cfg0.N) : FVec Ideal S1x1024 .f32 := iblk m c 16 t

abbrev tbf (c : Dev nD) (t : Fin cfg0.N) : FVec Ideal S1x1024 .f32 := iblk m c 17 t

abbrev tbc (c : Dev nD) (t : Fin cfg0.N) : FVec Ideal S1x1024 .f32 := iblk m c 18 t

abbrev tbo (c : Dev nD) (t : Fin cfg0.N) : FVec Ideal S1x1024 .f32 := iblk m c 19 t

/-! ## Each block read off its argument -/

/-- Row `p` of the block is batch row `128 t + p` of the argument. -/
theorem tx_apply (c : Dev nD) (t : Fin cfg0.N) (p : Fin 128) (k : Fin 1024) :
    tx m c t (ix2 p k) = (m ((c : Thread nD τ).loc main_arg0)) (ix2 (tileRow t p) k) := by
  show (V m c main_v0 : FVec Ideal S2048x1024 .bf16) (((cfg0.win 0).blk t).view.emb (ix2 p k)) = _
  rw [V_v0 m c]
  refine congrArg (m ((c : Thread nD τ).loc main_arg0)) (funext fun a => Fin.ext ?_)
  obtain ⟨e0, e1⟩ := idx0 t
  match a with
  | ⟨0, _⟩ => show win0_0.index t (0 : Fin 2) * 128 + 1 * p.val = 128 * t.val + p.val; rw [e0]; omega
  | ⟨1, _⟩ => show win0_0.index t (1 : Fin 2) * 1024 + 1 * k.val = k.val; rw [e1]; omega

/-- Row `p` of the block is batch row `128 t + p` of the argument. -/
theorem th_apply (c : Dev nD) (t : Fin cfg0.N) (p : Fin 128) (k : Fin 1024) :
    th m c t (ix2 p k) = (m ((c : Thread nD τ).loc main_arg1)) (ix2 (tileRow t p) k) := by
  show (V m c main_arg1 : FVec Ideal S2048x1024 .f32) (((cfg0.win 1).blk t).view.emb (ix2 p k)) = _
  rw [V_main_arg1 m c]
  refine congrArg (m ((c : Thread nD τ).loc main_arg1)) (funext fun a => Fin.ext ?_)
  obtain ⟨e0, e1⟩ := idx1 t
  match a with
  | ⟨0, _⟩ => show win0_1.index t (0 : Fin 2) * 128 + 1 * p.val = 128 * t.val + p.val; rw [e0]; omega
  | ⟨1, _⟩ => show win0_1.index t (1 : Fin 2) * 1024 + 1 * k.val = k.val; rw [e1]; omega

/-- Row `p` of the block is batch row `128 t + p` of the argument. -/
theorem tc_apply (c : Dev nD) (t : Fin cfg0.N) (p : Fin 128) (k : Fin 1024) :
    tc m c t (ix2 p k) = (m ((c : Thread nD τ).loc main_arg2)) (ix2 (tileRow t p) k) := by
  show (V m c main_arg2 : FVec Ideal S2048x1024 .f32) (((cfg0.win 2).blk t).view.emb (ix2 p k)) = _
  rw [V_main_arg2 m c]
  refine congrArg (m ((c : Thread nD τ).loc main_arg2)) (funext fun a => Fin.ext ?_)
  obtain ⟨e0, e1⟩ := idx2 t
  match a with
  | ⟨0, _⟩ => show win0_2.index t (0 : Fin 2) * 128 + 1 * p.val = 128 * t.val + p.val; rw [e0]; omega
  | ⟨1, _⟩ => show win0_2.index t (1 : Fin 2) * 1024 + 1 * k.val = k.val; rw [e1]; omega

/-- Row `p` of the block is batch row `128 t + p` of the argument. -/
theorem tmI_apply (c : Dev nD) (t : Fin cfg0.N) (p : Fin 128) (k : Fin 1024) :
    tmI m c t (ix2 p k) = (m ((c : Thread nD τ).loc main_arg15)) (ix2 (tileRow t p) k) := by
  show (V m c main_arg15 : FVec Ideal S2048x1024 .f32) (((cfg0.win 3).blk t).view.emb (ix2 p k)) = _
  rw [V_main_arg15 m c]
  refine congrArg (m ((c : Thread nD τ).loc main_arg15)) (funext fun a => Fin.ext ?_)
  obtain ⟨e0, e1⟩ := idx3 t
  match a with
  | ⟨0, _⟩ => show win0_3.index t (0 : Fin 2) * 128 + 1 * p.val = 128 * t.val + p.val; rw [e0]; omega
  | ⟨1, _⟩ => show win0_3.index t (1 : Fin 2) * 1024 + 1 * k.val = k.val; rw [e1]; omega

/-- Row `p` of the block is batch row `128 t + p` of the argument. -/
theorem tmF_apply (c : Dev nD) (t : Fin cfg0.N) (p : Fin 128) (k : Fin 1024) :
    tmF m c t (ix2 p k) = (m ((c : Thread nD τ).loc main_arg16)) (ix2 (tileRow t p) k) := by
  show (V m c main_arg16 : FVec Ideal S2048x1024 .f32) (((cfg0.win 4).blk t).view.emb (ix2 p k)) = _
  rw [V_main_arg16 m c]
  refine congrArg (m ((c : Thread nD τ).loc main_arg16)) (funext fun a => Fin.ext ?_)
  obtain ⟨e0, e1⟩ := idx4 t
  match a with
  | ⟨0, _⟩ => show win0_4.index t (0 : Fin 2) * 128 + 1 * p.val = 128 * t.val + p.val; rw [e0]; omega
  | ⟨1, _⟩ => show win0_4.index t (1 : Fin 2) * 1024 + 1 * k.val = k.val; rw [e1]; omega

/-- Row `p` of the block is batch row `128 t + p` of the argument. -/
theorem tmC_apply (c : Dev nD) (t : Fin cfg0.N) (p : Fin 128) (k : Fin 1024) :
    tmC m c t (ix2 p k) = (m ((c : Thread nD τ).loc main_arg17)) (ix2 (tileRow t p) k) := by
  show (V m c main_arg17 : FVec Ideal S2048x1024 .f32) (((cfg0.win 5).blk t).view.emb (ix2 p k)) = _
  rw [V_main_arg17 m c]
  refine congrArg (m ((c : Thread nD τ).loc main_arg17)) (funext fun a => Fin.ext ?_)
  obtain ⟨e0, e1⟩ := idx5 t
  match a with
  | ⟨0, _⟩ => show win0_5.index t (0 : Fin 2) * 128 + 1 * p.val = 128 * t.val + p.val; rw [e0]; omega
  | ⟨1, _⟩ => show win0_5.index t (1 : Fin 2) * 1024 + 1 * k.val = k.val; rw [e1]; omega

/-- Row `p` of the block is batch row `128 t + p` of the argument. -/
theorem tmO_apply (c : Dev nD) (t : Fin cfg0.N) (p : Fin 128) (k : Fin 1024) :
    tmO m c t (ix2 p k) = (m ((c : Thread nD τ).loc main_arg18)) (ix2 (tileRow t p) k) := by
  show (V m c main_arg18 : FVec Ideal S2048x1024 .f32) (((cfg0.win 6).blk t).view.emb (ix2 p k)) = _
  rw [V_main_arg18 m c]
  refine congrArg (m ((c : Thread nD τ).loc main_arg18)) (funext fun a => Fin.ext ?_)
  obtain ⟨e0, e1⟩ := idx6 t
  match a with
  | ⟨0, _⟩ => show win0_6.index t (0 : Fin 2) * 128 + 1 * p.val = 128 * t.val + p.val; rw [e0]; omega
  | ⟨1, _⟩ => show win0_6.index t (1 : Fin 2) * 1024 + 1 * k.val = k.val; rw [e1]; omega

/-- Row `p` of the block is batch row `128 t + p` of the argument. -/
theorem tmc_apply (c : Dev nD) (t : Fin cfg0.N) (p : Fin 128) (k : Fin 1024) :
    tmc m c t (ix2 p k) = (m ((c : Thread nD τ).loc main_arg19)) (ix2 (tileRow t p) k) := by
  show (V m c main_arg19 : FVec Ideal S2048x1024 .f32) (((cfg0.win 7).blk t).view.emb (ix2 p k)) = _
  rw [V_main_arg19 m c]
  refine congrArg (m ((c : Thread nD τ).loc main_arg19)) (funext fun a => Fin.ext ?_)
  obtain ⟨e0, e1⟩ := idx7 t
  match a with
  | ⟨0, _⟩ => show win0_7.index t (0 : Fin 2) * 128 + 1 * p.val = 128 * t.val + p.val; rw [e0]; omega
  | ⟨1, _⟩ => show win0_7.index t (1 : Fin 2) * 1024 + 1 * k.val = k.val; rw [e1]; omega

/-- The weight block is the whole weight matrix. -/
theorem twxi_apply (c : Dev nD) (t : Fin cfg0.N) (q k : Fin 1024) :
    twxi m c t (ix2 q k) = (m ((c : Thread nD τ).loc main_arg3)) (ix2 q k) := by
  show (V m c main_v1 : FVec Ideal S1024x1024 .bf16) (((cfg0.win 8).blk t).view.emb (ix2 q k)) = _
  rw [V_v1 m c]
  refine congrArg (m ((c : Thread nD τ).loc main_arg3)) (funext fun a => Fin.ext ?_)
  obtain ⟨e0, e1⟩ := idx8 t
  match a with
  | ⟨0, _⟩ => show win0_8.index t (0 : Fin 2) * 1024 + 1 * q.val = q.val; rw [e0]; omega
  | ⟨1, _⟩ => show win0_8.index t (1 : Fin 2) * 1024 + 1 * k.val = k.val; rw [e1]; omega

/-- The weight block is the whole weight matrix. -/
theorem twxf_apply (c : Dev nD) (t : Fin cfg0.N) (q k : Fin 1024) :
    twxf m c t (ix2 q k) = (m ((c : Thread nD τ).loc main_arg4)) (ix2 q k) := by
  show (V m c main_v2 : FVec Ideal S1024x1024 .bf16) (((cfg0.win 9).blk t).view.emb (ix2 q k)) = _
  rw [V_v2 m c]
  refine congrArg (m ((c : Thread nD τ).loc main_arg4)) (funext fun a => Fin.ext ?_)
  obtain ⟨e0, e1⟩ := idx9 t
  match a with
  | ⟨0, _⟩ => show win0_9.index t (0 : Fin 2) * 1024 + 1 * q.val = q.val; rw [e0]; omega
  | ⟨1, _⟩ => show win0_9.index t (1 : Fin 2) * 1024 + 1 * k.val = k.val; rw [e1]; omega

/-- The weight block is the whole weight matrix. -/
theorem twxc_apply (c : Dev nD) (t : Fin cfg0.N) (q k : Fin 1024) :
    twxc m c t (ix2 q k) = (m ((c : Thread nD τ).loc main_arg5)) (ix2 q k) := by
  show (V m c main_v3 : FVec Ideal S1024x1024 .bf16) (((cfg0.win 10).blk t).view.emb (ix2 q k)) = _
  rw [V_v3 m c]
  refine congrArg (m ((c : Thread nD τ).loc main_arg5)) (funext fun a => Fin.ext ?_)
  obtain ⟨e0, e1⟩ := idx10 t
  match a with
  | ⟨0, _⟩ => show win0_10.index t (0 : Fin 2) * 1024 + 1 * q.val = q.val; rw [e0]; omega
  | ⟨1, _⟩ => show win0_10.index t (1 : Fin 2) * 1024 + 1 * k.val = k.val; rw [e1]; omega

/-- The weight block is the whole weight matrix. -/
theorem twxo_apply (c : Dev nD) (t : Fin cfg0.N) (q k : Fin 1024) :
    twxo m c t (ix2 q k) = (m ((c : Thread nD τ).loc main_arg6)) (ix2 q k) := by
  show (V m c main_v4 : FVec Ideal S1024x1024 .bf16) (((cfg0.win 11).blk t).view.emb (ix2 q k)) = _
  rw [V_v4 m c]
  refine congrArg (m ((c : Thread nD τ).loc main_arg6)) (funext fun a => Fin.ext ?_)
  obtain ⟨e0, e1⟩ := idx11 t
  match a with
  | ⟨0, _⟩ => show win0_11.index t (0 : Fin 2) * 1024 + 1 * q.val = q.val; rw [e0]; omega
  | ⟨1, _⟩ => show win0_11.index t (1 : Fin 2) * 1024 + 1 * k.val = k.val; rw [e1]; omega

/-- The weight block is the whole weight matrix. -/
theorem twhi_apply (c : Dev nD) (t : Fin cfg0.N) (q k : Fin 1024) :
    twhi m c t (ix2 q k) = (m ((c : Thread nD τ).loc main_arg7)) (ix2 q k) := by
  show (V m c main_v5 : FVec Ideal S1024x1024 .bf16) (((cfg0.win 12).blk t).view.emb (ix2 q k)) = _
  rw [V_v5 m c]
  refine congrArg (m ((c : Thread nD τ).loc main_arg7)) (funext fun a => Fin.ext ?_)
  obtain ⟨e0, e1⟩ := idx12 t
  match a with
  | ⟨0, _⟩ => show win0_12.index t (0 : Fin 2) * 1024 + 1 * q.val = q.val; rw [e0]; omega
  | ⟨1, _⟩ => show win0_12.index t (1 : Fin 2) * 1024 + 1 * k.val = k.val; rw [e1]; omega

/-- The weight block is the whole weight matrix. -/
theorem twhf_apply (c : Dev nD) (t : Fin cfg0.N) (q k : Fin 1024) :
    twhf m c t (ix2 q k) = (m ((c : Thread nD τ).loc main_arg8)) (ix2 q k) := by
  show (V m c main_v6 : FVec Ideal S1024x1024 .bf16) (((cfg0.win 13).blk t).view.emb (ix2 q k)) = _
  rw [V_v6 m c]
  refine congrArg (m ((c : Thread nD τ).loc main_arg8)) (funext fun a => Fin.ext ?_)
  obtain ⟨e0, e1⟩ := idx13 t
  match a with
  | ⟨0, _⟩ => show win0_13.index t (0 : Fin 2) * 1024 + 1 * q.val = q.val; rw [e0]; omega
  | ⟨1, _⟩ => show win0_13.index t (1 : Fin 2) * 1024 + 1 * k.val = k.val; rw [e1]; omega

/-- The weight block is the whole weight matrix. -/
theorem twhc_apply (c : Dev nD) (t : Fin cfg0.N) (q k : Fin 1024) :
    twhc m c t (ix2 q k) = (m ((c : Thread nD τ).loc main_arg9)) (ix2 q k) := by
  show (V m c main_v7 : FVec Ideal S1024x1024 .bf16) (((cfg0.win 14).blk t).view.emb (ix2 q k)) = _
  rw [V_v7 m c]
  refine congrArg (m ((c : Thread nD τ).loc main_arg9)) (funext fun a => Fin.ext ?_)
  obtain ⟨e0, e1⟩ := idx14 t
  match a with
  | ⟨0, _⟩ => show win0_14.index t (0 : Fin 2) * 1024 + 1 * q.val = q.val; rw [e0]; omega
  | ⟨1, _⟩ => show win0_14.index t (1 : Fin 2) * 1024 + 1 * k.val = k.val; rw [e1]; omega

/-- The weight block is the whole weight matrix. -/
theorem twho_apply (c : Dev nD) (t : Fin cfg0.N) (q k : Fin 1024) :
    twho m c t (ix2 q k) = (m ((c : Thread nD τ).loc main_arg10)) (ix2 q k) := by
  show (V m c main_v8 : FVec Ideal S1024x1024 .bf16) (((cfg0.win 15).blk t).view.emb (ix2 q k)) = _
  rw [V_v8 m c]
  refine congrArg (m ((c : Thread nD τ).loc main_arg10)) (funext fun a => Fin.ext ?_)
  obtain ⟨e0, e1⟩ := idx15 t
  match a with
  | ⟨0, _⟩ => show win0_15.index t (0 : Fin 2) * 1024 + 1 * q.val = q.val; rw [e0]; omega
  | ⟨1, _⟩ => show win0_15.index t (1 : Fin 2) * 1024 + 1 * k.val = k.val; rw [e1]; omega

/-- Entry `(0, q)` of the bias row is entry `q` of the bias vector. -/
theorem tbi_apply (c : Dev nD) (t : Fin cfg0.N) (q : Fin 1024) :
    tbi m c t (ix2 (0 : Fin 1) q) = (m ((c : Thread nD τ).loc main_arg11)) (ix1 q) := by
  show (V m c main_v9 : FVec Ideal S1x1024 .f32) (((cfg0.win 16).blk t).view.emb (ix2 (0 : Fin 1) q)) = _
  rw [V_v9 m c]
  refine shapeCast_apply (s := S1024) (t := S1x1024) (m ((c : Thread nD τ).loc main_arg11)) shapeCasts_S1024_S1x1024 _ (ix1 q) ?_
  rw [Shape.rowMajor_val_one, Shape.rowMajor_val_two]
  obtain ⟨e0, e1⟩ := idx16 t
  show q.val = (win0_16.index t (0 : Fin 2) * 1 + 1 * 0) * 1024 + (win0_16.index t (1 : Fin 2) * 1024 + 1 * q.val)
  rw [e0, e1]; omega

/-- Entry `(0, q)` of the bias row is entry `q` of the bias vector. -/
theorem tbf_apply (c : Dev nD) (t : Fin cfg0.N) (q : Fin 1024) :
    tbf m c t (ix2 (0 : Fin 1) q) = (m ((c : Thread nD τ).loc main_arg12)) (ix1 q) := by
  show (V m c main_v10 : FVec Ideal S1x1024 .f32) (((cfg0.win 17).blk t).view.emb (ix2 (0 : Fin 1) q)) = _
  rw [V_v10 m c]
  refine shapeCast_apply (s := S1024) (t := S1x1024) (m ((c : Thread nD τ).loc main_arg12)) shapeCasts_S1024_S1x1024 _ (ix1 q) ?_
  rw [Shape.rowMajor_val_one, Shape.rowMajor_val_two]
  obtain ⟨e0, e1⟩ := idx17 t
  show q.val = (win0_17.index t (0 : Fin 2) * 1 + 1 * 0) * 1024 + (win0_17.index t (1 : Fin 2) * 1024 + 1 * q.val)
  rw [e0, e1]; omega

/-- Entry `(0, q)` of the bias row is entry `q` of the bias vector. -/
theorem tbc_apply (c : Dev nD) (t : Fin cfg0.N) (q : Fin 1024) :
    tbc m c t (ix2 (0 : Fin 1) q) = (m ((c : Thread nD τ).loc main_arg13)) (ix1 q) := by
  show (V m c main_v11 : FVec Ideal S1x1024 .f32) (((cfg0.win 18).blk t).view.emb (ix2 (0 : Fin 1) q)) = _
  rw [V_v11 m c]
  refine shapeCast_apply (s := S1024) (t := S1x1024) (m ((c : Thread nD τ).loc main_arg13)) shapeCasts_S1024_S1x1024 _ (ix1 q) ?_
  rw [Shape.rowMajor_val_one, Shape.rowMajor_val_two]
  obtain ⟨e0, e1⟩ := idx18 t
  show q.val = (win0_18.index t (0 : Fin 2) * 1 + 1 * 0) * 1024 + (win0_18.index t (1 : Fin 2) * 1024 + 1 * q.val)
  rw [e0, e1]; omega

/-- Entry `(0, q)` of the bias row is entry `q` of the bias vector. -/
theorem tbo_apply (c : Dev nD) (t : Fin cfg0.N) (q : Fin 1024) :
    tbo m c t (ix2 (0 : Fin 1) q) = (m ((c : Thread nD τ).loc main_arg14)) (ix1 q) := by
  show (V m c main_v12 : FVec Ideal S1x1024 .f32) (((cfg0.win 19).blk t).view.emb (ix2 (0 : Fin 1) q)) = _
  rw [V_v12 m c]
  refine shapeCast_apply (s := S1024) (t := S1x1024) (m ((c : Thread nD τ).loc main_arg14)) shapeCasts_S1024_S1x1024 _ (ix1 q) ?_
  rw [Shape.rowMajor_val_one, Shape.rowMajor_val_two]
  obtain ⟨e0, e1⟩ := idx19 t
  show q.val = (win0_19.index t (0 : Fin 2) * 1 + 1 * 0) * 1024 + (win0_19.index t (1 : Fin 2) * 1024 + 1 * q.val)
  rw [e0, e1]; omega

end Cert.KernelIdeal.Blocks

end
-- ==== Proof.KernelArrays.lean ====
/-
  From the tiles to the whole arrays: what the kernel's two result arrays hold after the run, at `Ideal`.

  Row `p` of grid point `t`'s tile of every data array is batch row `128 t + p` of the argument, a weight block is the
  argument, and entry `(0, q)` of a bias block is entry `q` of the argument. So a gate's pre-activation on the tile is
  the gate of the ARGUMENTS at row `128 t + p`, the stored cell-state block is the cell's new state there, and the
  stored hidden-state block the new hidden state. Each result window's block index is `(t, 0)`: the 16 tiles of 128
  rows cover the 2048 rows, row `r` falling to point `r / 128`, so each result array ends holding the cell's function
  of the arguments everywhere.
-/
import proofs.«120567_j22445499089342_1_alg».proof.Proof.Gen.KernelIdeal.Value
import proofs.«120567_j22445499089342_1_alg».proof.Proof.KernelTile
import proofs.«120567_j22445499089342_1_alg».proof.Proof.KernelBlocks
import Idealize.ShloMosaic.Lib.Pipeline.Value

set_option maxRecDepth 16384

noncomputable section

namespace Cert.KernelIdeal.Arrays

open Cert.KernelIdeal Cert.KernelIdeal.Gen Cert.KernelIdeal.Tile Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The two results as functions of the argument arrays -/

/-- The new cell state of the launched arguments. -/
abbrev cellOf (c : Dev nD) : FVec Ideal S2048x1024 .f32 :=
  Cell.cellState (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18))
    (m ((c : Thread nD τ).loc main_arg19))

/-- The new hidden state of the launched arguments. -/
abbrev hiddenOf (c : Dev nD) : FVec Ideal S2048x1024 .f32 :=
  Cell.hidden (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18))
    (m ((c : Thread nD τ).loc main_arg19))

/-! ## The gates and the two stored blocks, in the arguments -/

/-- The input gate's pre-activation on the tile is the gate of the arguments at batch row `128 t + p`. -/
theorem gateI (c : Dev nD) (t : Fin cfg0.N) (p : Fin 128) (q : Fin 1024) :
    tileGate (tx m c t) (th m c t) (tmI m c t) (twxi m c t) (twhi m c t) (tbi m c t) p q
      = Cell.gate (m ((c : Thread nD τ).loc main_arg0)) (m ((c : Thread nD τ).loc main_arg1)) (m ((c : Thread nD τ).loc main_arg15))
          (m ((c : Thread nD τ).loc main_arg3)) (m ((c : Thread nD τ).loc main_arg7)) (m ((c : Thread nD τ).loc main_arg11)) (tileRow t p) q :=
  tileGate_eq_gate (tx m c t) (th m c t) (tmI m c t) (twxi m c t) (twhi m c t) (tbi m c t)
    (m ((c : Thread nD τ).loc main_arg0)) (m ((c : Thread nD τ).loc main_arg1)) (m ((c : Thread nD τ).loc main_arg15))
    (m ((c : Thread nD τ).loc main_arg3)) (m ((c : Thread nD τ).loc main_arg7)) (m ((c : Thread nD τ).loc main_arg11)) (tileRow t p) p q
    (fun k => tx_apply m c t p k) (fun k => th_apply m c t p k) (fun k => tmI_apply m c t p k)
    (fun k => twxi_apply m c t q k) (fun k => twhi_apply m c t q k) (tbi_apply m c t q)

/-- The forget gate's. -/
theorem gateF (c : Dev nD) (t : Fin cfg0.N) (p : Fin 128) (q : Fin 1024) :
    tileGate (tx m c t) (th m c t) (tmF m c t) (twxf m c t) (twhf m c t) (tbf m c t) p q
      = Cell.gate (m ((c : Thread nD τ).loc main_arg0)) (m ((c : Thread nD τ).loc main_arg1)) (m ((c : Thread nD τ).loc main_arg16))
          (m ((c : Thread nD τ).loc main_arg4)) (m ((c : Thread nD τ).loc main_arg8)) (m ((c : Thread nD τ).loc main_arg12)) (tileRow t p) q :=
  tileGate_eq_gate (tx m c t) (th m c t) (tmF m c t) (twxf m c t) (twhf m c t) (tbf m c t)
    (m ((c : Thread nD τ).loc main_arg0)) (m ((c : Thread nD τ).loc main_arg1)) (m ((c : Thread nD τ).loc main_arg16))
    (m ((c : Thread nD τ).loc main_arg4)) (m ((c : Thread nD τ).loc main_arg8)) (m ((c : Thread nD τ).loc main_arg12)) (tileRow t p) p q
    (fun k => tx_apply m c t p k) (fun k => th_apply m c t p k) (fun k => tmF_apply m c t p k)
    (fun k => twxf_apply m c t q k) (fun k => twhf_apply m c t q k) (tbf_apply m c t q)

/-- The candidate's. -/
theorem gateC (c : Dev nD) (t : Fin cfg0.N) (p : Fin 128) (q : Fin 1024) :
    tileGate (tx m c t) (th m c t) (tmC m c t) (twxc m c t) (twhc m c t) (tbc m c t) p q
      = Cell.gate (m ((c : Thread nD τ).loc main_arg0)) (m ((c : Thread nD τ).loc main_arg1)) (m ((c : Thread nD τ).loc main_arg17))
          (m ((c : Thread nD τ).loc main_arg5)) (m ((c : Thread nD τ).loc main_arg9)) (m ((c : Thread nD τ).loc main_arg13)) (tileRow t p) q :=
  tileGate_eq_gate (tx m c t) (th m c t) (tmC m c t) (twxc m c t) (twhc m c t) (tbc m c t)
    (m ((c : Thread nD τ).loc main_arg0)) (m ((c : Thread nD τ).loc main_arg1)) (m ((c : Thread nD τ).loc main_arg17))
    (m ((c : Thread nD τ).loc main_arg5)) (m ((c : Thread nD τ).loc main_arg9)) (m ((c : Thread nD τ).loc main_arg13)) (tileRow t p) p q
    (fun k => tx_apply m c t p k) (fun k => th_apply m c t p k) (fun k => tmC_apply m c t p k)
    (fun k => twxc_apply m c t q k) (fun k => twhc_apply m c t q k) (tbc_apply m c t q)

/-- The output gate's. -/
theorem gateO (c : Dev nD) (t : Fin cfg0.N) (p : Fin 128) (q : Fin 1024) :
    tileGate (tx m c t) (th m c t) (tmO m c t) (twxo m c t) (twho m c t) (tbo m c t) p q
      = Cell.gate (m ((c : Thread nD τ).loc main_arg0)) (m ((c : Thread nD τ).loc main_arg1)) (m ((c : Thread nD τ).loc main_arg18))
          (m ((c : Thread nD τ).loc main_arg6)) (m ((c : Thread nD τ).loc main_arg10)) (m ((c : Thread nD τ).loc main_arg14)) (tileRow t p) q :=
  tileGate_eq_gate (tx m c t) (th m c t) (tmO m c t) (twxo m c t) (twho m c t) (tbo m c t)
    (m ((c : Thread nD τ).loc main_arg0)) (m ((c : Thread nD τ).loc main_arg1)) (m ((c : Thread nD τ).loc main_arg18))
    (m ((c : Thread nD τ).loc main_arg6)) (m ((c : Thread nD τ).loc main_arg10)) (m ((c : Thread nD τ).loc main_arg14)) (tileRow t p) p q
    (fun k => tx_apply m c t p k) (fun k => th_apply m c t p k) (fun k => tmO_apply m c t p k)
    (fun k => twxo_apply m c t q k) (fun k => twho_apply m c t q k) (tbo_apply m c t q)

/-- The stored cell-state block at `(p, q)` is the new cell state of the arguments at `(128 t + p, q)`. -/
theorem cellAt (c : Dev nD) (t : Fin cfg0.N) (p : Fin 128) (q : Fin 1024) :
    k0_pay10 (F := Ideal) (tx m c t) (th m c t) (tc m c t) (tmI m c t) (tmF m c t) (tmC m c t) (tmc m c t)
        (twxi m c t) (twxf m c t) (twxc m c t) (twhi m c t) (twhf m c t) (twhc m c t) (tbi m c t) (tbf m c t) (tbc m c t) (ix2 p q)
      = cellOf m c (ix2 (tileRow t p) q) := by
  refine (cellBlock_apply (tx m c t) (th m c t) (tc m c t) (tmI m c t) (tmF m c t) (tmC m c t) (tmc m c t)
    (twxi m c t) (twxf m c t) (twxc m c t) (twhi m c t) (twhf m c t) (twhc m c t) (tbi m c t) (tbf m c t) (tbc m c t) p q).trans ?_
  rw [gateF m c t p q, gateI m c t p q, gateC m c t p q, tc_apply m c t p q, tmc_apply m c t p q]
  rfl

/-- The stored hidden-state block at `(p, q)` is the new hidden state of the arguments at `(128 t + p, q)`. -/
theorem hiddenAt (c : Dev nD) (t : Fin cfg0.N) (p : Fin 128) (q : Fin 1024) :
    k0_pay11 (F := Ideal) (tx m c t) (th m c t) (tc m c t) (tmI m c t) (tmF m c t) (tmC m c t) (tmO m c t) (tmc m c t)
        (twxi m c t) (twxf m c t) (twxc m c t) (twxo m c t) (twhi m c t) (twhf m c t) (twhc m c t) (twho m c t)
        (tbi m c t) (tbf m c t) (tbc m c t) (tbo m c t) (ix2 p q)
      = hiddenOf m c (ix2 (tileRow t p) q) := by
  refine (hiddenBlock_apply (tx m c t) (th m c t) (tc m c t) (tmI m c t) (tmF m c t) (tmC m c t) (tmO m c t) (tmc m c t)
    (twxi m c t) (twxf m c t) (twxc m c t) (twxo m c t) (twhi m c t) (twhf m c t) (twhc m c t) (twho m c t)
    (tbi m c t) (tbf m c t) (tbc m c t) (tbo m c t) p q).trans ?_
  rw [gateO m c t p q, cellAt m c t p q]
  rfl

/-! ## From the blocks to the arrays -/

theorem hz : (![0, 0] : Fin 2 → Nat) = fun _ => 0 := funext fun a => by fin_cases a <;> rfl

/-- A result block's entry `(p, q)` at point `t` is the array's entry `(128 t + p, q)` (cell-state window). -/
theorem emb21 (t : Fin cfg0.N) (p : Fin 128) (q : Fin 1024) :
    (((cfg0.win 21).blk t).view.emb (ix2 p q) : S2048x1024.Idx) = ix2 (tileRow t p) q := by
  funext a; apply Fin.ext
  obtain ⟨e0, e1⟩ := idx21 t
  match a with
  | ⟨0, _⟩ => show win0_21.index t (0 : Fin 2) * 128 + 1 * p.val = 128 * t.val + p.val; rw [e0]; omega
  | ⟨1, _⟩ => show win0_21.index t (1 : Fin 2) * 1024 + 1 * q.val = q.val; rw [e1]; omega

/-- The same for the hidden-state window. -/
theorem emb20 (t : Fin cfg0.N) (p : Fin 128) (q : Fin 1024) :
    (((cfg0.win 20).blk t).view.emb (ix2 p q) : S2048x1024.Idx) = ix2 (tileRow t p) q := by
  funext a; apply Fin.ext
  obtain ⟨e0, e1⟩ := idx20 t
  match a with
  | ⟨0, _⟩ => show win0_20.index t (0 : Fin 2) * 128 + 1 * p.val = 128 * t.val + p.val; rw [e0]; omega
  | ⟨1, _⟩ => show win0_20.index t (1 : Fin 2) * 1024 + 1 * q.val = q.val; rw [e1]; omega

/-- What point `t` writes back to the cell-state result is block `t` of the new cell state of the arguments. -/
theorem flushed21_eq (c : Dev nD) (t : Fin cfg0.N) :
    (dats m 0 c).flushed 21 t = ((cfg0.win 21).blk t).view.read (Elt Ideal) (cellOf m c) := by
  rw [Value.flushed21]
  unfold out0_21
  rw [View.canon_unit_zero hz]
  simp only [View.ld_unit_zero (S := S128x1024) hz, View.ld_unit_zero (S := S1024x1024) hz, View.ld_unit_zero (S := S1x1024) hz]
  simp only [k0_pay1, k0_pay2, k0_pay3, k0_pay4, k0_pay6, k0_pay7, k0_pay8, shapeCast_self]
  funext (y : S128x1024.Idx)
  obtain ⟨p, q, rfl⟩ : ∃ (p : Fin 128) (q : Fin 1024), y = ix2 p q := ⟨y 0, y 1, eq_ix2 y⟩
  show k0_pay10 (F := Ideal) (tx m c t) (th m c t) (tc m c t) (tmI m c t) (tmF m c t) (tmC m c t) (tmc m c t)
      (twxi m c t) (twxf m c t) (twxc m c t) (twhi m c t) (twhf m c t) (twhc m c t) (tbi m c t) (tbf m c t) (tbc m c t) (ix2 p q)
    = cellOf m c (((cfg0.win 21).blk t).view.emb (ix2 p q))
  rw [emb21 t p q]
  exact cellAt m c t p q

/-- What point `t` writes back to the hidden-state result is block `t` of the new hidden state of the arguments. -/
theorem flushed20_eq (c : Dev nD) (t : Fin cfg0.N) :
    (dats m 0 c).flushed 20 t = ((cfg0.win 20).blk t).view.read (Elt Ideal) (hiddenOf m c) := by
  rw [Value.flushed20]
  unfold out0_20
  rw [View.canon_unit_zero hz]
  simp only [View.ld_unit_zero (S := S128x1024) hz, View.ld_unit_zero (S := S1024x1024) hz, View.ld_unit_zero (S := S1x1024) hz]
  simp only [k0_pay1, k0_pay2, k0_pay3, k0_pay4, k0_pay5, k0_pay6, k0_pay7, k0_pay8, k0_pay9, shapeCast_self]
  funext (y : S128x1024.Idx)
  obtain ⟨p, q, rfl⟩ : ∃ (p : Fin 128) (q : Fin 1024), y = ix2 p q := ⟨y 0, y 1, eq_ix2 y⟩
  show k0_pay11 (F := Ideal) (tx m c t) (th m c t) (tc m c t) (tmI m c t) (tmF m c t) (tmC m c t) (tmO m c t) (tmc m c t)
      (twxi m c t) (twxf m c t) (twxc m c t) (twxo m c t) (twhi m c t) (twhf m c t) (twhc m c t) (twho m c t)
      (tbi m c t) (tbf m c t) (tbc m c t) (tbo m c t) (ix2 p q)
    = hiddenOf m c (((cfg0.win 20).blk t).view.emb (ix2 p q))
  rw [emb20 t p q]
  exact hiddenAt m c t p q

/-- An index of the cell-state result is in point `t`'s block iff each coordinate is in the block's range on its axis. -/
theorem mem_blk21 (t : Fin cfg0.N) (i : S2048x1024.Idx) :
    i ∈ ((cfg0.win 21).blk t).view.set ↔ ∀ a : Fin 2, win0_21.index t a * S128x1024.size a ≤ (i a).val ∧ (i a).val < win0_21.index t a * S128x1024.size a + S128x1024.size a := by
  show i ∈ ((View.whole main_v13_1).slice (win0_21.rect t)).set ↔ _
  rw [View.set_slice_whole, Rect.mem_set_unit]
  exact Iff.rfl

/-- The same for the hidden-state result. -/
theorem mem_blk20 (t : Fin cfg0.N) (i : S2048x1024.Idx) :
    i ∈ ((cfg0.win 20).blk t).view.set ↔ ∀ a : Fin 2, win0_20.index t a * S128x1024.size a ≤ (i a).val ∧ (i a).val < win0_20.index t a * S128x1024.size a + S128x1024.size a := by
  show i ∈ ((View.whole main_v13_0).slice (win0_20.rect t)).set ↔ _
  rw [View.set_slice_whole, Rect.mem_set_unit]
  exact Iff.rfl

/-- Every index of the cell-state result is in the block of the point its row falls to: row `r` in point `r / 128`. -/
theorem cover21 (i : S2048x1024.Idx) : ∃ t : Fin cfg0.N, (cfg0.win 21).flush t = true ∧ i ∈ ((cfg0.win 21).blk t).view.set := by
  have hi0 : (i 0).val < 2048 := (i 0).isLt
  have hi1 : (i 1).val < 1024 := (i 1).isLt
  have ht : (i 0).val / 128 < 16 := by omega
  refine ⟨⟨(i 0).val / 128, ht⟩, flush0_21 _, ?_⟩
  rw [mem_blk21]
  obtain ⟨e0, e1⟩ := idx21 ⟨(i 0).val / 128, ht⟩
  intro a
  match a with
  | ⟨0, _⟩ =>
    show win0_21.index ⟨(i 0).val / 128, ht⟩ (0 : Fin 2) * 128 ≤ (i 0).val ∧ (i 0).val < win0_21.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_21.index ⟨(i 0).val / 128, ht⟩ (1 : Fin 2) * 1024 ≤ (i 1).val ∧ (i 1).val < win0_21.index ⟨(i 0).val / 128, ht⟩ (1 : Fin 2) * 1024 + 1024
    rw [e1]; omega

/-- The same for the hidden-state result. -/
theorem cover20 (i : S2048x1024.Idx) : ∃ t : Fin cfg0.N, (cfg0.win 20).flush t = true ∧ i ∈ ((cfg0.win 20).blk t).view.set := by
  have hi0 : (i 0).val < 2048 := (i 0).isLt
  have hi1 : (i 1).val < 1024 := (i 1).isLt
  have ht : (i 0).val / 128 < 16 := by omega
  refine ⟨⟨(i 0).val / 128, ht⟩, flush0_20 _, ?_⟩
  rw [mem_blk20]
  obtain ⟨e0, e1⟩ := idx20 ⟨(i 0).val / 128, ht⟩
  intro a
  match a with
  | ⟨0, _⟩ =>
    show win0_20.index ⟨(i 0).val / 128, ht⟩ (0 : Fin 2) * 128 ≤ (i 0).val ∧ (i 0).val < win0_20.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_20.index ⟨(i 0).val / 128, ht⟩ (1 : Fin 2) * 1024 ≤ (i 1).val ∧ (i 1).val < win0_20.index ⟨(i 0).val / 128, ht⟩ (1 : Fin 2) * 1024 + 1024
    rw [e1]; omega

/-- The cell-state result after the run. -/
theorem final21 (c : Dev nD) : (dats m 0 c).arrAt 21 cfg0.N = cellOf m c :=
  (dats m 0 c).arrAt_eq_of_cover 21 (cellOf m c) (fun t _ => flushed21_eq m c t) cover21

/-- The hidden-state result after the run. -/
theorem final20 (c : Dev nD) : (dats m 0 c).arrAt 20 cfg0.N = hiddenOf m c :=
  (dats m 0 c).arrAt_eq_of_cover 20 (hiddenOf m c) (fun t _ => flushed20_eq m c t) cover20

/-! ## The run, read -/

/-- Every weakly fair execution of the kernel ends with the hidden-state result at `hiddenOf`, the cell-state result at
    `cellOf`, and the arguments unchanged. -/
theorem run : θ_run defs (onTc (τ := τ) (main (F := Ideal))) ⟨m, fun _ => 0, ρ⟩ fun r => ∀ c : Dev nD,
      r.2.mem ((c : Thread nD τ).loc main_v13_0) = hiddenOf m c
      ∧ r.2.mem ((c : Thread nD τ).loc main_v13_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨(h c).1.trans (final20 m c), (h c).2.1.trans (final21 m c), (h c).2.2⟩)
    (Value.run_blocks m ρ)

end Cert.KernelIdeal.Arrays

end
-- ==== Proof.RefCell.lean ====
/-
  The reference, read at an entry, is the cell's two functions.

  The reference stacks the four gates: the four input-weight matrices, the four recurrent-weight matrices and the four
  masked recurrent inputs are each laid along a new leading axis, two batched products give every gate's sums at once,
  and each gate is then cut out of the stack again. Entry `(g, r, q)` of the stacked sum is
  `(∑ k, wx_g (q, k) * x (r, k)) + ∑ k, (h (r, k) * mh_g (r, k)) * wh_g (q, k)`: the first product has the weight on the
  left, which commutativity of the product on the extended reals turns into the cell's spelling. The logistic function
  is spelled out as `1 / (1 + e^(-z))` with the constant one; that is `σ` on the extended reals, corners included.
-/
import proofs.«120567_j22445499089342_1_alg».proof.Proof.Gen.ReferenceIdeal.Read
import proofs.«120567_j22445499089342_1_alg».proof.Proof.CellSpec
import Idealize.ShloMosaic.Lib.ValueIdx
import Idealize.ShloMosaic.Lib.Pipeline.Value
import Idealize.ShloMosaic.PureOps.Ideal.Laws

noncomputable section

namespace Cert.ReferenceIdeal.CellRead

open Cert.ReferenceIdeal Cert.ReferenceIdeal.Read Idealize.ShloMosaic Idealize.ShloMosaic.ValueIdx

/-! ## Four arrays laid along a new leading axis -/

/-- Entry `(g, a, b)` of four arrays of one shape laid along a new leading axis is entry `(0, a, b)` of the `g`-th. -/
theorem stack4_apply {A B : Nat} (f : Fin 4 → ((⟨3, ![1, A, B]⟩ : Shape).Idx → EReal))
    (h : Shape.Concatenates ((List.ofFn fun n : Fin 4 => (⟨⟨3, ![1, A, B]⟩, f n⟩ : (s : Shape) × (s.Idx → EReal))).map (·.1)) ⟨3, ![4, A, B]⟩ 0)
    (g : Fin 4) (a : Fin A) (b : Fin B) :
    concatenate ⟨3, ![4, A, B]⟩ 0 (List.ofFn fun n : Fin 4 => (⟨⟨3, ![1, A, B]⟩, f n⟩ : (s : Shape) × (s.Idx → EReal))) h (ix3 g a b)
      = f g (ix3 (0 : Fin 1) a b) :=
  concatenate_ofFn_unit_apply (t := ⟨3, ![4, A, B]⟩) (s₁ := ⟨3, ![1, A, B]⟩) 0 f h rfl rfl (ix3 g a b) g rfl (ix3 (0 : Fin 1) a b)
    (fun c hc => match c with
      | ⟨0, _⟩ => absurd rfl hc
      | ⟨1, _⟩ => rfl
      | ⟨2, _⟩ => rfl)

/-- An index of a matrix is determined by its two coordinates. -/
theorem eq_of_coords {A B : Nat} (a : Fin A) (b : Fin B) (j : (⟨2, ![A, B]⟩ : Shape).Idx) (h0 : (j 0).val = a.val) (h1 : (j 1).val = b.val) :
    j = ix2 a b :=
  funext fun d => Fin.ext (match d with | ⟨0, _⟩ => h0 | ⟨1, _⟩ => h1)

/-- The stacked input weights at `(g, q, k)`: gate `g`'s matrix at `(q, k)`. -/
theorem wxStack_apply (x3 x4 x5 x6 : FVec Ideal S1024x1024 .f32) (g : Fin 4) (q k : Fin 1024) :
    val_main_v18 (F := Ideal) x3 x4 x5 x6 (ix3 g q k) = (![x3, x4, x5, x6] : Fin 4 → FVec Ideal S1024x1024 .f32) g (ix2 q k) := by
  unfold val_main_v18
  refine (stack4_apply (fun n => (![val_main_v14 (F := Ideal) x3, val_main_v15 (F := Ideal) x4, val_main_v16 (F := Ideal) x5, val_main_v17 (F := Ideal) x6] : Fin 4 → _) n) _ g q k).trans ?_
  fin_cases g
  · show val_main_v14 (F := Ideal) x3 (ix3 (0 : Fin 1) q k) = x3 (ix2 q k)
    rw [val_main_v14_apply]
    exact congrArg x3 (eq_of_coords q k _ rfl rfl)
  · show val_main_v15 (F := Ideal) x4 (ix3 (0 : Fin 1) q k) = x4 (ix2 q k)
    rw [val_main_v15_apply]
    exact congrArg x4 (eq_of_coords q k _ rfl rfl)
  · show val_main_v16 (F := Ideal) x5 (ix3 (0 : Fin 1) q k) = x5 (ix2 q k)
    rw [val_main_v16_apply]
    exact congrArg x5 (eq_of_coords q k _ rfl rfl)
  · show val_main_v17 (F := Ideal) x6 (ix3 (0 : Fin 1) q k) = x6 (ix2 q k)
    rw [val_main_v17_apply]
    exact congrArg x6 (eq_of_coords q k _ rfl rfl)

/-- The stacked recurrent weights at `(g, q, k)`. -/
theorem whStack_apply (x7 x8 x9 x10 : FVec Ideal S1024x1024 .f32) (g : Fin 4) (q k : Fin 1024) :
    val_main_v13 (F := Ideal) x7 x8 x9 x10 (ix3 g q k) = (![x7, x8, x9, x10] : Fin 4 → FVec Ideal S1024x1024 .f32) g (ix2 q k) := by
  unfold val_main_v13
  refine (stack4_apply (fun n => (![val_main_v9 (F := Ideal) x7, val_main_v10 (F := Ideal) x8, val_main_v11 (F := Ideal) x9, val_main_v12 (F := Ideal) x10] : Fin 4 → _) n) _ g q k).trans ?_
  fin_cases g
  · show val_main_v9 (F := Ideal) x7 (ix3 (0 : Fin 1) q k) = x7 (ix2 q k)
    rw [val_main_v9_apply]
    exact congrArg x7 (eq_of_coords q k _ rfl rfl)
  · show val_main_v10 (F := Ideal) x8 (ix3 (0 : Fin 1) q k) = x8 (ix2 q k)
    rw [val_main_v10_apply]
    exact congrArg x8 (eq_of_coords q k _ rfl rfl)
  · show val_main_v11 (F := Ideal) x9 (ix3 (0 : Fin 1) q k) = x9 (ix2 q k)
    rw [val_main_v11_apply]
    exact congrArg x9 (eq_of_coords q k _ rfl rfl)
  · show val_main_v12 (F := Ideal) x10 (ix3 (0 : Fin 1) q k) = x10 (ix2 q k)
    rw [val_main_v12_apply]
    exact congrArg x10 (eq_of_coords q k _ rfl rfl)

/-- The stacked masked recurrent inputs at `(g, r, k)`: the recurrent state times gate `g`'s mask at `(r, k)`. -/
theorem hsStack_apply (x1 x15 x16 x17 x18 : FVec Ideal S2048x1024 .f32) (g : Fin 4) (r : Fin 2048) (k : Fin 1024) :
    val_main_v8 (F := Ideal) x1 x15 x16 x17 x18 (ix3 g r k)
      = x1 (ix2 r k) * (![x15, x16, x17, x18] : Fin 4 → FVec Ideal S2048x1024 .f32) g (ix2 r k) := by
  unfold val_main_v8
  refine (stack4_apply (fun n => (![val_main_v4 (F := Ideal) x1 x15, val_main_v5 (F := Ideal) x1 x16, val_main_v6 (F := Ideal) x1 x17, val_main_v7 (F := Ideal) x1 x18] : Fin 4 → _) n) _ g r k).trans ?_
  fin_cases g
  · show val_main_v4 (F := Ideal) x1 x15 (ix3 (0 : Fin 1) r k) = x1 (ix2 r k) * x15 (ix2 r k)
    rw [val_main_v4_apply, val_main_v0_apply, eq_of_coords r k (idx_main_v4 (ix3 (0 : Fin 1) r k)) rfl rfl]
    rfl
  · show val_main_v5 (F := Ideal) x1 x16 (ix3 (0 : Fin 1) r k) = x1 (ix2 r k) * x16 (ix2 r k)
    rw [val_main_v5_apply, val_main_v1_apply, eq_of_coords r k (idx_main_v5 (ix3 (0 : Fin 1) r k)) rfl rfl]
    rfl
  · show val_main_v6 (F := Ideal) x1 x17 (ix3 (0 : Fin 1) r k) = x1 (ix2 r k) * x17 (ix2 r k)
    rw [val_main_v6_apply, val_main_v2_apply, eq_of_coords r k (idx_main_v6 (ix3 (0 : Fin 1) r k)) rfl rfl]
    rfl
  · show val_main_v7 (F := Ideal) x1 x18 (ix3 (0 : Fin 1) r k) = x1 (ix2 r k) * x18 (ix2 r k)
    rw [val_main_v7_apply, val_main_v3_apply, eq_of_coords r k (idx_main_v7 (ix3 (0 : Fin 1) r k)) rfl rfl]
    rfl

/-! ## The stacked sums -/

/-- Entry `(g, r, q)` of the stacked sum, in the cell's spelling. -/
theorem stacked_apply (x0 x1 : FVec Ideal S2048x1024 .f32) (x3 x4 x5 x6 x7 x8 x9 x10 : FVec Ideal S1024x1024 .f32)
    (x15 x16 x17 x18 : FVec Ideal S2048x1024 .f32) (g : Fin 4) (r : Fin 2048) (q : Fin 1024) :
    val_main_v22 (F := Ideal) x0 x1 x3 x4 x5 x6 x7 x8 x9 x10 x15 x16 x17 x18 (ix3 g r q)
      = (∑ k : Fin 1024, x0 (ix2 r k) * (![x3, x4, x5, x6] : Fin 4 → FVec Ideal S1024x1024 .f32) g (ix2 q k))
        + ∑ k : Fin 1024, (x1 (ix2 r k) * (![x15, x16, x17, x18] : Fin 4 → FVec Ideal S2048x1024 .f32) g (ix2 r k))
            * (![x7, x8, x9, x10] : Fin 4 → FVec Ideal S1024x1024 .f32) g (ix2 q k) := by
  rw [val_main_v22_apply, val_main_v20_apply, val_main_v19_apply, val_main_v21_apply]
  simp only [Ideal.addf_def]
  congr 1
  · refine Finset.sum_congr rfl fun k _ => ?_
    have e1 : lidx_main_v19 (idx_main_v20 (ix3 g r q)) k = ix3 g q k :=
      funext fun a => match a with | ⟨0, _⟩ => rfl | ⟨1, _⟩ => rfl | ⟨2, _⟩ => rfl
    have e2 : ridx_main_v19 (idx_main_v20 (ix3 g r q)) k = ix2 r k :=
      funext fun a => match a with | ⟨0, _⟩ => rfl | ⟨1, _⟩ => rfl
    rw [e1, e2, wxStack_apply, mul_comm]
  · refine Finset.sum_congr rfl fun k _ => ?_
    have e1 : lidx_main_v21 (ix3 g r q) k = ix3 g r k :=
      funext fun a => match a with | ⟨0, _⟩ => rfl | ⟨1, _⟩ => rfl | ⟨2, _⟩ => rfl
    have e2 : ridx_main_v21 (ix3 g r q) k = ix3 g q k :=
      funext fun a => match a with | ⟨0, _⟩ => rfl | ⟨1, _⟩ => rfl | ⟨2, _⟩ => rfl
    rw [e1, e2, hsStack_apply, whStack_apply]

/-! ## Cutting a gate out of the stack, and its bias -/

/-- Gate `g`'s slice of the stack, with the leading axis dropped, at `(r, q)` is the stack at `(g, r, q)`: the index. -/
theorem cut_idx (g : Fin 4) (r : Fin 2048) (q : Fin 1024) (j : S4x2048x1024.Idx)
    (h0 : (j 0).val = g.val) (h1 : (j 1).val = (r.val * 1024 + q.val) / 1024 % 2048) (h2 : (j 2).val = (r.val * 1024 + q.val) % 1024) :
    j = ix3 g r q := by
  have hr := r.isLt
  have hq := q.isLt
  funext a
  apply Fin.ext
  match a with
  | ⟨0, _⟩ => exact h0
  | ⟨1, _⟩ => show (j 1).val = r.val; omega
  | ⟨2, _⟩ => show (j 2).val = q.val; omega

/-- The input gate's pre-activation. -/
theorem preI_apply (x0 x1 : FVec Ideal S2048x1024 .f32) (x3 x4 x5 x6 x7 x8 x9 x10 : FVec Ideal S1024x1024 .f32) (x11 : FVec Ideal S1024 .f32)
    (x15 x16 x17 x18 : FVec Ideal S2048x1024 .f32) (r : Fin 2048) (q : Fin 1024) :
    val_main_v27 (F := Ideal) x0 x1 x3 x4 x5 x6 x7 x8 x9 x10 x11 x15 x16 x17 x18 (ix2 r q) = Cell.gate x0 x1 x15 x3 x7 x11 r q := by
  rw [val_main_v27_apply, val_main_v24_apply, val_main_v23_apply, val_main_v26_apply, val_main_v25_apply,
    cut_idx 0 r q (idx_main_v23 (idx_main_v24 (ix2 r q))) rfl rfl rfl, stacked_apply]
  have eb : idx_main_v25 (idx_main_v26 (ix2 r q)) = ix1 q := funext fun a => match a with | ⟨0, _⟩ => rfl
  rw [eb]
  rfl

/-- The forget gate's pre-activation. -/
theorem preF_apply (x0 x1 : FVec Ideal S2048x1024 .f32) (x3 x4 x5 x6 x7 x8 x9 x10 : FVec Ideal S1024x1024 .f32) (x12 : FVec Ideal S1024 .f32)
    (x15 x16 x17 x18 : FVec Ideal S2048x1024 .f32) (r : Fin 2048) (q : Fin 1024) :
    val_main_v38 (F := Ideal) x0 x1 x3 x4 x5 x6 x7 x8 x9 x10 x12 x15 x16 x17 x18 (ix2 r q) = Cell.gate x0 x1 x16 x4 x8 x12 r q := by
  rw [val_main_v38_apply, val_main_v35_apply, val_main_v34_apply, val_main_v37_apply, val_main_v36_apply,
    cut_idx 1 r q (idx_main_v34 (idx_main_v35 (ix2 r q))) rfl rfl rfl, stacked_apply]
  have eb : idx_main_v36 (idx_main_v37 (ix2 r q)) = ix1 q := funext fun a => match a with | ⟨0, _⟩ => rfl
  rw [eb]
  rfl

/-- The candidate's pre-activation. -/
theorem preC_apply (x0 x1 : FVec Ideal S2048x1024 .f32) (x3 x4 x5 x6 x7 x8 x9 x10 : FVec Ideal S1024x1024 .f32) (x13 : FVec Ideal S1024 .f32)
    (x15 x16 x17 x18 : FVec Ideal S2048x1024 .f32) (r : Fin 2048) (q : Fin 1024) :
    val_main_v49 (F := Ideal) x0 x1 x3 x4 x5 x6 x7 x8 x9 x10 x13 x15 x16 x17 x18 (ix2 r q) = Cell.gate x0 x1 x17 x5 x9 x13 r q := by
  rw [val_main_v49_apply, val_main_v46_apply, val_main_v45_apply, val_main_v48_apply, val_main_v47_apply,
    cut_idx 2 r q (idx_main_v45 (idx_main_v46 (ix2 r q))) rfl rfl rfl, stacked_apply]
  have eb : idx_main_v47 (idx_main_v48 (ix2 r q)) = ix1 q := funext fun a => match a with | ⟨0, _⟩ => rfl
  rw [eb]
  rfl

/-- The output gate's pre-activation. -/
theorem preO_apply (x0 x1 : FVec Ideal S2048x1024 .f32) (x3 x4 x5 x6 x7 x8 x9 x10 : FVec Ideal S1024x1024 .f32) (x14 : FVec Ideal S1024 .f32)
    (x15 x16 x17 x18 : FVec Ideal S2048x1024 .f32) (r : Fin 2048) (q : Fin 1024) :
    val_main_v56 (F := Ideal) x0 x1 x3 x4 x5 x6 x7 x8 x9 x10 x14 x15 x16 x17 x18 (ix2 r q) = Cell.gate x0 x1 x18 x6 x10 x14 r q := by
  rw [val_main_v56_apply, val_main_v53_apply, val_main_v52_apply, val_main_v55_apply, val_main_v54_apply,
    cut_idx 3 r q (idx_main_v52 (idx_main_v53 (ix2 r q))) rfl rfl rfl, stacked_apply]
  have eb : idx_main_v54 (idx_main_v55 (ix2 r q)) = ix1 q := funext fun a => match a with | ⟨0, _⟩ => rfl
  rw [eb]
  rfl

/-! ## The logistic function spelled out -/

/-- `1 / (1 + e^(-z))` with the constant one is `σ z` on the extended reals. -/
theorem sigma_spelled (z : EReal) :
    FloatOps.hostDivf (F := Ideal) (φ := .f32) (FloatOps.ofBits (F := Ideal) .f32 0x3F800000#32)
      (FloatOps.addf (FloatOps.ofBits (F := Ideal) .f32 0x3F800000#32) (FloatOps.hostUnary .exp (FloatOps.hostNegf z)))
      = Ideal.logistic z := by
  rw [Ideal.ofBits_def, Cell.one_f32]
  rfl

/-- The input gate. -/
theorem sigI_apply (x0 x1 : FVec Ideal S2048x1024 .f32) (x3 x4 x5 x6 x7 x8 x9 x10 : FVec Ideal S1024x1024 .f32) (x11 : FVec Ideal S1024 .f32)
    (x15 x16 x17 x18 : FVec Ideal S2048x1024 .f32) (r : Fin 2048) (q : Fin 1024) :
    val_main_v33 (F := Ideal) x0 x1 x3 x4 x5 x6 x7 x8 x9 x10 x11 x15 x16 x17 x18 (ix2 r q)
      = Ideal.logistic (Cell.gate x0 x1 x15 x3 x7 x11 r q) := by
  rw [val_main_v33_apply, val_main_v32_apply, val_main_cst_0_apply, val_main_v31_apply, val_main_v30_apply, val_main_cst_apply,
    val_main_v29_apply, val_main_v28_apply, preI_apply]
  exact sigma_spelled _

/-- The forget gate. -/
theorem sigF_apply (x0 x1 : FVec Ideal S2048x1024 .f32) (x3 x4 x5 x6 x7 x8 x9 x10 : FVec Ideal S1024x1024 .f32) (x12 : FVec Ideal S1024 .f32)
    (x15 x16 x17 x18 : FVec Ideal S2048x1024 .f32) (r : Fin 2048) (q : Fin 1024) :
    val_main_v44 (F := Ideal) x0 x1 x3 x4 x5 x6 x7 x8 x9 x10 x12 x15 x16 x17 x18 (ix2 r q)
      = Ideal.logistic (Cell.gate x0 x1 x16 x4 x8 x12 r q) := by
  rw [val_main_v44_apply, val_main_v43_apply, val_main_cst_2_apply, val_main_v42_apply, val_main_v41_apply, val_main_cst_1_apply,
    val_main_v40_apply, val_main_v39_apply, preF_apply]
  exact sigma_spelled _

/-- The output gate. -/
theorem sigO_apply (x0 x1 : FVec Ideal S2048x1024 .f32) (x3 x4 x5 x6 x7 x8 x9 x10 : FVec Ideal S1024x1024 .f32) (x14 : FVec Ideal S1024 .f32)
    (x15 x16 x17 x18 : FVec Ideal S2048x1024 .f32) (r : Fin 2048) (q : Fin 1024) :
    val_main_v62 (F := Ideal) x0 x1 x3 x4 x5 x6 x7 x8 x9 x10 x14 x15 x16 x17 x18 (ix2 r q)
      = Ideal.logistic (Cell.gate x0 x1 x18 x6 x10 x14 r q) := by
  rw [val_main_v62_apply, val_main_v61_apply, val_main_cst_4_apply, val_main_v60_apply, val_main_v59_apply, val_main_cst_3_apply,
    val_main_v58_apply, val_main_v57_apply, preO_apply]
  exact sigma_spelled _

/-! ## The two results -/

/-- The reference's second result is the new cell state. -/
theorem cell_eq (x0 x1 x2 : FVec Ideal S2048x1024 .f32) (x3 x4 x5 x6 x7 x8 x9 x10 : FVec Ideal S1024x1024 .f32)
    (x11 x12 x13 x14 : FVec Ideal S1024 .f32) (x15 x16 x17 x18 x19 : FVec Ideal S2048x1024 .f32) :
    val_main_v65 (F := Ideal) x0 x1 x2 x3 x4 x5 x6 x7 x8 x9 x10 x11 x12 x13 x15 x16 x17 x18 x19
      = Cell.cellState x0 x1 x2 x3 x4 x5 x6 x7 x8 x9 x10 x11 x12 x13 x14 x15 x16 x17 x18 x19 := by
  funext i
  obtain ⟨r, q, rfl⟩ : ∃ (r : Fin 2048) (q : Fin 1024), i = ix2 r q := ⟨i 0, i 1, eq_ix2 i⟩
  rw [val_main_v65_apply, val_main_v63_apply, val_main_v64_apply, val_main_v51_apply, val_main_v50_apply,
    sigF_apply, sigI_apply, preC_apply]
  rfl

/-- The reference's first result is the new hidden state. -/
theorem hidden_eq (x0 x1 x2 : FVec Ideal S2048x1024 .f32) (x3 x4 x5 x6 x7 x8 x9 x10 : FVec Ideal S1024x1024 .f32)
    (x11 x12 x13 x14 : FVec Ideal S1024 .f32) (x15 x16 x17 x18 x19 : FVec Ideal S2048x1024 .f32) :
    val_main_v67 (F := Ideal) x0 x1 x2 x3 x4 x5 x6 x7 x8 x9 x10 x11 x12 x13 x14 x15 x16 x17 x18 x19
      = Cell.hidden x0 x1 x2 x3 x4 x5 x6 x7 x8 x9 x10 x11 x12 x13 x14 x15 x16 x17 x18 x19 := by
  funext i
  obtain ⟨r, q, rfl⟩ : ∃ (r : Fin 2048) (q : Fin 1024), i = ix2 r q := ⟨i 0, i 1, eq_ix2 i⟩
  rw [val_main_v67_apply, val_main_v66_apply, sigO_apply, cell_eq x0 x1 x2 x3 x4 x5 x6 x7 x8 x9 x10 x11 x12 x13 x14 x15 x16 x17 x18 x19]
  rfl

end Cert.ReferenceIdeal.CellRead

end
-- ==== Proof.lean ====
/-
  One step of an LSTM cell with dropout masks on the recurrent input (one per gate) and on the candidate: a kernel that
  tiles the batch against a reference that stacks the four gates.

  KERNEL. A grid of 16 points over a batch of 2048 rows; point `t` holds rows `128 t … 128 t + 127` of the input, the two
  states and the five masks, and the eight 1024 × 1024 weight matrices and four bias rows whole. For each gate it adds
  the input tile times the TRANSPOSED input weights, the masked recurrent tile times the transposed recurrent weights,
  and the bias row; applies `σ` (input, forget, output gates) or `tanh` (candidate, then its mask); and stores
  `σ_F · c + σ_I · (tanh_C · m_c)` and `σ_O · tanh` of that.

  REFERENCE. The same sums for all four gates at once, from two batched products over stacked weights and stacked masked
  inputs, each gate then cut out of the stack; `σ` is spelled `1 / (1 + e^(-z))`.

  At the ideal values a change of float format is the identity, a matrix-unit product into the zero accumulator and the
  host's product are the same sum over the contracted axis, and `σ` is one function on the extended reals however it is
  spelled. So both programs end with the two functions of Proof/CellSpec.lean of their arguments: no law beyond
  commutativity of the product under one sum is needed, and the precondition (finite inputs) is never opened.

  Proof/KernelTile.lean reads the kernel's stored blocks at an entry; Proof/KernelBlocks.lean reads each window's block
  off its argument; Proof/KernelArrays.lean puts the 16 tiles together into the two result arrays; Proof/RefCell.lean
  reads the reference at an entry. The frames of the two kernel programs are the generated ones; the reference's frame is
  its generated run with the results dropped; the idealization rewrote nothing, so `preserves` is `True`.
-/
import proofs.«120567_j22445499089342_1_alg».proof.Defs
import proofs.«120567_j22445499089342_1_alg».proof.Proof.Gen.Kernel
import proofs.«120567_j22445499089342_1_alg».proof.Proof.Gen.Kernel.Skeleton
import proofs.«120567_j22445499089342_1_alg».proof.Proof.Gen.Kernel.Launch
import proofs.«120567_j22445499089342_1_alg».proof.Proof.Gen.Kernel.Points
import proofs.«120567_j22445499089342_1_alg».proof.Proof.Gen.Kernel.Frame
import proofs.«120567_j22445499089342_1_alg».proof.Proof.Gen.KernelIdeal
import proofs.«120567_j22445499089342_1_alg».proof.Proof.Gen.KernelIdeal.Skeleton
import proofs.«120567_j22445499089342_1_alg».proof.Proof.Gen.KernelIdeal.Launch
import proofs.«120567_j22445499089342_1_alg».proof.Proof.Gen.KernelIdeal.Points
import proofs.«120567_j22445499089342_1_alg».proof.Proof.Gen.KernelIdeal.Frame
import proofs.«120567_j22445499089342_1_alg».proof.Proof.Gen.ReferenceIdeal
import proofs.«120567_j22445499089342_1_alg».proof.Proof.Gen.Pre_finite_inputs
import proofs.«120567_j22445499089342_1_alg».proof.Proof.Gen.KernelIdeal.Value
import proofs.«120567_j22445499089342_1_alg».proof.Proof.Gen.ReferenceIdeal.Run
import proofs.«120567_j22445499089342_1_alg».proof.Proof.Gen.ReferenceIdeal.Read
import proofs.«120567_j22445499089342_1_alg».proof.Proof.KernelArrays
import proofs.«120567_j22445499089342_1_alg».proof.Proof.RefCell
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

set_option maxHeartbeats 1000000 in
/-- From arguments that agree, the kernel ends with its two results at the cell's new hidden and cell state of its
    arguments, and the reference with its two results at the same functions of its own arguments. -/
theorem algebraic : Cert.algebraic_KernelIdeal_ReferenceIdeal := by
  intro m ρ m' ρ' _ hagree
  have key : ∀ c : Dev Cert.KernelIdeal.nD,
      Cert.ReferenceIdeal.Value.res_main_v67 m' c = Cert.KernelIdeal.Arrays.hiddenOf m c
      ∧ Cert.ReferenceIdeal.Value.res_main_v65 m' c = Cert.KernelIdeal.Arrays.cellOf m c := by
    intro c
    obtain ⟨h0, h1, h2, h3, h4, h5, h6, h7, h8, h9, h10, h11, h12, h13, h14, h15, h16, h17, h18, h19⟩ := hagree c
    constructor
    · rw [Cert.ReferenceIdeal.Read.val_main_v67_eq, Cert.ReferenceIdeal.CellRead.hidden_eq, h0, h1, h2, h3, h4, h5, h6, h7, h8, h9, h10, h11, h12, h13, h14, h15, h16, h17, h18, h19]
    · rw [Cert.ReferenceIdeal.Read.val_main_v65_eq, h0, h1, h2, h3, h4, h5, h6, h7, h8, h9, h10, h11, h12, h13, h15, h16, h17, h18, h19]
      exact Cert.ReferenceIdeal.CellRead.cell_eq _ _ _ _ _ _ _ _ _ _ _ _ _ _
        (m ((c.tc : Thread Cert.KernelIdeal.nD Cert.KernelIdeal.τ).loc Cert.KernelIdeal.main_arg14)) _ _ _ _ _
  refine ⟨fun c => Cert.KernelIdeal.Arrays.hiddenOf m c, fun c => Cert.KernelIdeal.Arrays.cellOf m c,
    Cert.KernelIdeal.Arrays.run m ρ, ?_⟩
  exact (θ_run Cert.ReferenceIdeal.defs _ _).mono
    (fun _ h c => ⟨(h c).1.trans (key c).1, (h c).2.1.trans (key c).2, (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
